-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4x1024x1024, .f32⟩
  | .hbm, ⟨10, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x256x1024, .f32⟩
  | .local _ .vmem, ⟨8, _⟩ => ⟨S1x256x1024, .f32⟩
  | .local _ .vmem, ⟨9, _⟩ => ⟨S1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .f32⟩
  | .local _ .vmem, ⟨13, _⟩ => ⟨S1x256x1024, .f32⟩
  | .local _ .vmem, ⟨14, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .f32 = 32 ∨ (Rect.block (s := S4x4096x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x1024.size a
  hwx1_2 : ∀ i : grid1.Coords, EltTy.bits .f32 = 32 ∨ (Rect.block (s := S4x1024x1024) S1x1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S4x4096x1024.size a
  hwx1_4 : ∀ i : grid1.Coords, EltTy.bits .f32 = 32 ∨ (Rect.block (s := S4x4096x1024) S1x256x1024.size (cc1_transform_4 i) (hinb1_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x4096 : Shape := ⟨3, ![4, 4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S4x4096x4096, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_call2_cst : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call3_cst : Ref sig .tc := ⟨.hbm, 20, rfl⟩
abbrev main_call3_v0 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.BitsRegion0.lean ====
/-
  The first kernel region (the Gram pass), at the buffer contents `V` the region is entered with.
  The grid is batch × tile, sixteen tiles of 256 rows to a batch. A scratch matrix carries the running sum of a
  batch across its tiles: at the batch's first tile it is reset to zero, at every tile this tile's
  `relu(x·Wbᵀ)ᵀ · relu(x·Wcᵀ)` is added to it, and at the batch's last tile it is copied into the output block, which
  the pipeline writes back there and nowhere else.
-/
import proofs.«175324_j45191645889033_1_alg».proof.Proof.Gen.Kernel.Launch
import proofs.«175324_j45191645889033_1_alg».proof.Proof.Gen.Kernel.Skeleton
import proofs.«175324_j45191645889033_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, over the grid -/

/-- "This is the batch's first tile": the condition of the reset. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the batch's last tile": the condition of the copy into the output block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The inputs are never idle; the output window is idle exactly off the last tile, and is not written back there. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The body's accesses and stored values -/

abbrev r0_x : Rect S1x256x1024 := Rect.unit (s := S1x256x1024) ![0, 0, 0] S1x256x1024.size inb_S1x256x1024_S1x256x1024_0_0_0
abbrev r0_w : Rect S1024x1024 := Rect.unit (s := S1024x1024) ![0, 0] S1024x1024.size inb_S1024x1024_S1024x1024_0_0
abbrev r0_m : Rect S1x1024x1024 := Rect.unit (s := S1x1024x1024) ![0, 0, 0] S1x1024x1024.size inb_S1x1024x1024_S1x1024x1024_0_0_0

/-- The scratch as a memref. -/
abbrev scM : Memref sig .tc .vmem S1024x1024 .f32 := Memref.whole cc0_scratch0

/-- The running sum after one more tile: the tile's blocks `x0` (rows of `x`), `x1`, `x2` (the two transposed weights)
    added onto the contents `a`. -/
def accStep (x0 : Vec F S1x256x1024 .f32) (x1 x2 a : Vec F S1024x1024 .f32) : Vec F S1024x1024 .f32 :=
  k0_pay2 x0 x1 x2 a

/-- The reset value. -/
def accReset : Vec F S1024x1024 .f32 := k0_pay1 (F := F)

/-- The output block from the running sum. -/
def outM (a : Vec F S1024x1024 .f32) : Vec F S1x1024x1024 .f32 := k0_pay3 a

theorem hz2 : (![0, 0] : Fin 2 → ℕ) = fun _ => 0 := by funext a; fin_cases a <;> rfl
theorem hz3 : (![0, 0, 0] : Fin 3 → ℕ) = fun _ => 0 := by funext a; fin_cases a <;> rfl

theorem cover_w (p0 : Vec F S1024x1024 .f32) (y : S1024x1024.Idx) :
    ∃ pc ∈ ([⟨r0_w, p0⟩] : List (View.Piece (Elt F) S1024x1024 .f32)), y ∈ pc.1.set :=
  View.cover_of_tiled [⟨r0_w, p0⟩] S1024x1024.size (by rfl) y
theorem cover_w' (p0 : Vec F S1024x1024 .f32) (L : List (View.Piece (Elt F) S1024x1024 .f32)) (y : S1024x1024.Idx) :
    ∃ pc ∈ ((⟨r0_w, p0⟩ : View.Piece (Elt F) S1024x1024 .f32) :: L), y ∈ pc.1.set := by
  obtain ⟨pc, hm, hy⟩ := cover_w p0 y
  rw [List.mem_singleton] at hm; subst hm
  exact ⟨_, List.mem_cons_self, hy⟩
theorem cover_m (p0 : Vec F S1x1024x1024 .f32) (y : S1x1024x1024.Idx) :
    ∃ pc ∈ ([⟨r0_m, p0⟩] : List (View.Piece (Elt F) S1x1024x1024 .f32)), y ∈ pc.1.set :=
  View.cover_of_tiled [⟨r0_m, p0⟩] S1x1024x1024.size (by rfl) y

/-! ## The body's triple, case by case -/

set_option maxHeartbeats 2000000 in
/-- A middle tile: neither reset nor copy. The scratch goes from `xs` to `accStep … xs`; the output's buffer is untouched. -/
theorem run_mid (c : Dev nD) (E : Set ℕ) (i : grid0.Coords) (h1 : ¬isFirst i) (h2 : ¬isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 xs : Vec F S1024x1024 .f32) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep x0 x1 x2 xs)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

set_option maxHeartbeats 2000000 in
/-- A batch's first tile: the scratch, whatever it held, is reset and this tile added; the output's buffer is untouched. -/
theorem run_first (c : Dev nD) (E : Set ℕ) (i : grid0.Coords) (h1 : isFirst i) (h2 : ¬isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 : Vec F S1024x1024 .f32) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep x0 x1 x2 accReset)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

set_option maxHeartbeats 2000000 in
/-- A batch's last tile: this tile is added to the scratch and the sum copied into the output's buffer. -/
theorem run_last (c : Dev nD) (E : Set ℕ) (i : grid0.Coords) (h1 : ¬isFirst i) (h2 : isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outM (accStep x0 x1 x2 xs)) ∗ owns (c : Thread nD τ) arg6 fullShare (accStep x0 x1 x2 xs)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_m _), View.canon_unit_zero hz3]
    simp only [View.readAt_eq_ld, View.ld_unit_zero (S := S1024x1024) hz2, View.ld_unit_zero (S := S1x256x1024) hz3, View.readCov_unit_zero (S := S1024x1024) _ hz2]
    try rfl
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

/-! ## The windows' blocks -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The running sum, point by point -/

/-- What the scratch holds after the body at position `n`: at a batch's first tile the reset value plus that tile,
    otherwise what the point before left plus this tile. -/
def acc0 (c : Dev nD) : (n : ℕ) → n < cfg0.N → Vec F S1024x1024 .f32
  | 0, hn => accStep (iblk0 V c 0 ⟨0, hn⟩) (iblk0 V c 1 ⟨0, hn⟩) (iblk0 V c 2 ⟨0, hn⟩) accReset
  | n + 1, hn =>
    if (n + 1) % 16 = 0 then
      accStep (iblk0 V c 0 ⟨n + 1, hn⟩) (iblk0 V c 1 ⟨n + 1, hn⟩) (iblk0 V c 2 ⟨n + 1, hn⟩) accReset
    else
      accStep (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 16 = 0) :
    acc0 V c t.val t.isLt = accStep (iblk0 V c 0 t) (iblk0 V c 1 t) (iblk0 V c 2 t) accReset := by
  obtain ⟨n, hn⟩ := t
  cases n with
  | zero => rfl
  | succ n => exact (if_pos h).trans rfl

theorem acc0_next (c : Dev nD) (t : Fin cfg0.N) (h : ¬t.val % 16 = 0) :
    acc0 V c t.val t.isLt = accStep (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The scoped buffers this region never touches (the other region's staging buffers), each whole at some contents. -/
abbrev restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The library's class invariant, spelt out: the scratch at some contents, the untouched scoped buffers, the generator register. -/
theorem PhiA0_eq (c : Dev nD) :
    (Pipeline.ΦA spec0 c : sProp 𝕄)
      = iprop(iprop((∃ d, owns (c : Thread nD τ) scM fullShare d) ∗ restScoped c) ∗ (∃ r, prngReg c r)) := by
  unfold Pipeline.ΦA; rw [scopedRest0_eq]; simp only [scM, owns_whole]; try rfl

/-- The invariant before position `n`: before the first point the class's; afterwards the scratch holds what the point
    before left. -/
def PhiS (c : Dev nD) : (n : ℕ) → n ≤ cfg0.N → sProp 𝕄
  | 0, _ => Pipeline.ΦA spec0 c
  | n + 1, hn => iprop(iprop(owns (c : Thread nD τ) scM fullShare (acc0 V c n hn) ∗ restScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc0 V c n hn) ∗ restScoped c) ∗ (∃ r, prngReg c r)) := rfl

theorem PhiS_pos (c : Dev nD) (n : ℕ) (h : n ≤ cfg0.N) (hz : n ≠ 0) :
    PhiS V c n h = iprop(iprop(owns (c : Thread nD τ) scM fullShare (acc0 V c (n - 1) (by omega)) ∗ restScoped c) ∗ (∃ r, prngReg c r)) := by
  cases n with
  | zero => exact absurd rfl hz
  | succ n => rfl

/-- At any position the invariant yields the scratch at SOME contents beside the rest. -/
theorem PhiS_weaken (c : Dev nD) (n : ℕ) (h : n ≤ cfg0.N) :
    PhiS V c n h ⊢ iprop(iprop((∃ d, owns (c : Thread nD τ) scM fullShare d) ∗ restScoped c) ∗ (∃ r, prngReg c r)) := by
  by_cases hz : n = 0
  · rw [PhiS_zero V c n h hz, PhiA0_eq]
  · rw [PhiS_pos V c n h hz]
    iintro ⟨⟨HS, HR⟩, Hg⟩
    isplitl [HS HR]
    · isplitl [HS]
      · iexists _; iexact HS
      iexact HR
    iexact Hg

/-! ## The region's proof data -/

/-- The arrays as the region finds them; after the body at point `t` each input's buffer at its block and the output's
    at the running sum laid out as a block (consulted only at a batch's last tile: elsewhere the window is idle); the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outM (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outM (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3_last (c : Dev nD) (t : Fin cfg0.N) (h : isLast (grid0.coords t)) :
    (dat0 V c).leavesExact 3 t = owns (c : Thread nD τ) (st0_3 t) fullShare (outM (acc0 V c t.val t.isLt)) := by
  unfold Dat.leavesExact; rw [live0_3 t h, after0_3]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The point's position within its batch says which of the three runs applies; the invariant
    hands the body the scratch (at what the point before left, or at anything where the body resets it) and takes it
    back at this point's running sum; off a batch's last tile the output's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, PhiS_castSucc V c t]
  by_cases hF : t.val % 16 = 0
  · have h1 : isFirst (grid0.coords t) := (isFirst_iff t).mpr hF
    have h2 : ¬isLast (grid0.coords t) := fun h => by have := (isLast_iff t).mp h; omega
    rw [Dat.leavesExact_idle (dat0 V c) 3 t (idle0_3 t h2) (noFlush0_3 t h2), acc0_first V c t hF]
    iintro ⟨HΦ, Ho, ⟨%d0, H0⟩, ⟨%d1, H1⟩, ⟨%d2, H2⟩, ⟨%d3, H3⟩⟩
    ihave HΦ' := (PhiS_weaken V c t.val (Nat.le_of_lt t.isLt)) $$ HΦ
    icases HΦ' with ⟨⟨HS, HR⟩, Hg⟩
    iapply (run_first c Set.univ (grid0.coords t) h1 h2 _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have h1 : ¬isFirst (grid0.coords t) := fun h => hF ((isFirst_iff t).mp h)
    have hz : t.val ≠ 0 := fun e => hF (by rw [e])
    rw [acc0_next V c t hF, PhiS_pos V c _ _ hz]
    by_cases hL : t.val % 16 = 15
    · have h2 : isLast (grid0.coords t) := (isLast_iff t).mpr hL
      rw [leaves0_3_last V c t h2, acc0_next V c t hF]
      iintro ⟨⟨⟨HS, HR⟩, Hg⟩, Ho, ⟨%d0, H0⟩, ⟨%d1, H1⟩, ⟨%d2, H2⟩, ⟨%d3, H3⟩⟩
      iapply (run_last c Set.univ (grid0.coords t) h1 h2 _ _ _ _ _ _ _ _ _ _ (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have h2 : ¬isLast (grid0.coords t) := fun h => hL ((isLast_iff t).mp h)
      rw [Dat.leavesExact_idle (dat0 V c) 3 t (idle0_3 t h2) (noFlush0_3 t h2)]
      iintro ⟨⟨⟨HS, HR⟩, Hg⟩, Ho, ⟨%d0, H0⟩, ⟨%d1, H1⟩, ⟨%d2, H2⟩, ⟨%d3, H3⟩⟩
      iapply (run_mid c Set.univ (grid0.coords t) h1 h2 _ _ _ _ _ _ _ _ _ _ (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after the last point the invariant gives it back, the scratch's named contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weaken V c _ _

end Cert.Kernel.Hand

end
-- ==== Proof.BitsRegion1.lean ====
/-
  The second kernel region (the output pass), at the buffer contents `V` the region is entered with.
  At grid point `t = (b, s)` the body reads four blocks — rows `256 s … 256 s + 255` of batch `b` of `x`, the whole of
  `Waᵀ`, the Gram matrix of batch `b`, the whole of `Wdᵀ` — and overwrites its whole output block with ONE stored
  value, a pure function of those four (`k1_pay1`); the load of the output block that precedes the store is dead.
  So the proof data name, per point, each input's buffer at its block and the output's at that function of the
  blocks; the invariant is the untouched rest (the other scoped buffers and the generator register).
-/
import proofs.«175324_j45191645889033_1_alg».proof.Proof.Gen.Kernel.Launch
import proofs.«175324_j45191645889033_1_alg».proof.Proof.Gen.Kernel.Skeleton
import proofs.«175324_j45191645889033_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S1x256x1024 := Rect.unit (s := S1x256x1024) ![0, 0, 0] S1x256x1024.size inb_S1x256x1024_S1x256x1024_0_0_0
abbrev r1_w : Rect S1024x1024 := Rect.unit (s := S1024x1024) ![0, 0] S1024x1024.size inb_S1024x1024_S1024x1024_0_0
abbrev r1_m : Rect S1x1024x1024 := Rect.unit (s := S1x1024x1024) ![0, 0, 0] S1x1024x1024.size inb_S1x1024x1024_S1x1024x1024_0_0_0

/-- What the body leaves in the output window's buffer: its one store, of the whole block. -/
def out1_4 (x0 : Vec F S1x256x1024 .f32) (x1 : Vec F S1024x1024 .f32) (x2 : Vec F S1x1024x1024 .f32) (x3 : Vec F S1024x1024 .f32) :
    Vec F S1x256x1024 .f32 :=
  View.canon [⟨r1_x, k1_pay1 (View.ld x0 r1_x) (View.ld x1 r1_w) (View.ld x2 r1_m) (View.ld x3 r1_w)⟩]

/-- The one store covers the block. -/
theorem cover1_4 (p0 : Vec F S1x256x1024 .f32) (y : S1x256x1024.Idx) :
    ∃ pc ∈ ([⟨r1_x, p0⟩] : List (View.Piece (Elt F) S1x256x1024 .f32)), y ∈ pc.1.set :=
  View.cover_of_tiled [⟨r1_x, p0⟩] S1x256x1024.size (by rfl) y

/-! ## The body's triple -/

set_option maxHeartbeats 1000000 in
/-- On whole staging buffers, the inputs' at contents `x0 … x3` and the output's at anything, the body runs to the
    inputs' as they were and the output's at `out1_4` of them. -/
theorem sound_kernel1 (c : Dev nD) (E : Set ℕ) (i : grid1.Coords)
    (arg2 : Memref sig .tc .vmem S1x256x1024 .f32) (harg2 : arg2.IsWhole) (arg3 : Memref sig .tc .vmem S1024x1024 .f32) (harg3 : arg3.IsWhole)
    (arg4 : Memref sig .tc .vmem S1x1024x1024 .f32) (harg4 : arg4.IsWhole) (arg5 : Memref sig .tc .vmem S1024x1024 .f32) (harg5 : arg5.IsWhole)
    (arg6 : Memref sig .tc .vmem S1x256x1024 .f32) (harg6 : arg6.IsWhole)
    (x0 : Vec F S1x256x1024 .f32) (x1 : Vec F S1024x1024 .f32) (x2 : Vec F S1x1024x1024 .f32) (x3 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__compute_out_kernel i arg2 harg2 arg3 harg3 arg4 harg4 arg5 harg5 arg6 harg6) K := by
  simp only [cc1__compute_out_kernel_eq_skeleton]; unfold cc1__compute_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the
    output's at `out1_4` of the four blocks; the invariant the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run: @main is four transposes on the host, the Gram pass, the output pass. The contents of every unscoped
  buffer at each boundary are a fold from the launch memory: the host operations applied, then each region's arrays at
  what its write-backs leave. Each region enters from "every unscoped buffer at the boundary's contents, the generator
  register at some state, nothing owed" and leaves at the next boundary's; the final state is read against the last
  boundary's contents, which names the result array and shows every argument as launched.
-/
import proofs.«175324_j45191645889033_1_alg».proof.Proof.BitsRegion0
import proofs.«175324_j45191645889033_1_alg».proof.Proof.BitsRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host's four transposes: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the Gram pass: its arrays at what its write-backs leave, the rest as entered. The second region's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the output pass: the end. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

`x` is an input window of both regions, never written back; the four weights are read only by the host's transposes. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The Gram pass: its arrays split out of the unscoped buffers and put back at the exit contents; the generator
    register and the scoped rest into the invariant (the class's, which is the invariant before the first point) and
    out of it (after the last point the scratch's named contents are forgotten). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V1 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output pass, whose invariant is the class's throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, in a state
    whose unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result named: the result array holds what the output pass's write-backs leave, and every
    argument is as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.Region0.lean ====
/-
  The first kernel region (the Gram pass), at the buffer contents `V` the region is entered with.
  The grid is batch × tile, sixteen tiles of 256 rows to a batch. A scratch matrix carries the running sum of a
  batch across its tiles: at the batch's first tile it is reset to zero, at every tile this tile's
  `relu(x·Wbᵀ)ᵀ · relu(x·Wcᵀ)` is added to it, and at the batch's last tile it is copied into the output block, which
  the pipeline writes back there and nowhere else.
-/
import proofs.«175324_j45191645889033_1_alg».proof.Proof.Gen.KernelIdeal.Launch
import proofs.«175324_j45191645889033_1_alg».proof.Proof.Gen.KernelIdeal.Skeleton
import proofs.«175324_j45191645889033_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, over the grid -/

/-- "This is the batch's first tile": the condition of the reset. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is the batch's last tile": the condition of the copy into the output block. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The inputs are never idle; the output window is idle exactly off the last tile, and is not written back there. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The body's accesses and stored values -/

abbrev r0_x : Rect S1x256x1024 := Rect.unit (s := S1x256x1024) ![0, 0, 0] S1x256x1024.size inb_S1x256x1024_S1x256x1024_0_0_0
abbrev r0_w : Rect S1024x1024 := Rect.unit (s := S1024x1024) ![0, 0] S1024x1024.size inb_S1024x1024_S1024x1024_0_0
abbrev r0_m : Rect S1x1024x1024 := Rect.unit (s := S1x1024x1024) ![0, 0, 0] S1x1024x1024.size inb_S1x1024x1024_S1x1024x1024_0_0_0

/-- The scratch as a memref. -/
abbrev scM : Memref sig .tc .vmem S1024x1024 .f32 := Memref.whole cc0_scratch0

/-- The running sum after one more tile: the tile's blocks `x0` (rows of `x`), `x1`, `x2` (the two transposed weights)
    added onto the contents `a`. -/
def accStep (x0 : Vec F S1x256x1024 .f32) (x1 x2 a : Vec F S1024x1024 .f32) : Vec F S1024x1024 .f32 :=
  k0_pay2 x0 x1 x2 a

/-- The reset value. -/
def accReset : Vec F S1024x1024 .f32 := k0_pay1 (F := F)

/-- The output block from the running sum. -/
def outM (a : Vec F S1024x1024 .f32) : Vec F S1x1024x1024 .f32 := k0_pay3 a

theorem hz2 : (![0, 0] : Fin 2 → ℕ) = fun _ => 0 := by funext a; fin_cases a <;> rfl
theorem hz3 : (![0, 0, 0] : Fin 3 → ℕ) = fun _ => 0 := by funext a; fin_cases a <;> rfl

theorem cover_w (p0 : Vec F S1024x1024 .f32) (y : S1024x1024.Idx) :
    ∃ pc ∈ ([⟨r0_w, p0⟩] : List (View.Piece (Elt F) S1024x1024 .f32)), y ∈ pc.1.set :=
  View.cover_of_tiled [⟨r0_w, p0⟩] S1024x1024.size (by rfl) y
theorem cover_w' (p0 : Vec F S1024x1024 .f32) (L : List (View.Piece (Elt F) S1024x1024 .f32)) (y : S1024x1024.Idx) :
    ∃ pc ∈ ((⟨r0_w, p0⟩ : View.Piece (Elt F) S1024x1024 .f32) :: L), y ∈ pc.1.set := by
  obtain ⟨pc, hm, hy⟩ := cover_w p0 y
  rw [List.mem_singleton] at hm; subst hm
  exact ⟨_, List.mem_cons_self, hy⟩
theorem cover_m (p0 : Vec F S1x1024x1024 .f32) (y : S1x1024x1024.Idx) :
    ∃ pc ∈ ([⟨r0_m, p0⟩] : List (View.Piece (Elt F) S1x1024x1024 .f32)), y ∈ pc.1.set :=
  View.cover_of_tiled [⟨r0_m, p0⟩] S1x1024x1024.size (by rfl) y

/-! ## The body's triple, case by case -/

set_option maxHeartbeats 2000000 in
/-- A middle tile: neither reset nor copy. The scratch goes from `xs` to `accStep … xs`; the output's buffer is untouched. -/
theorem run_mid (c : Dev nD) (E : Set ℕ) (i : grid0.Coords) (h1 : ¬isFirst i) (h2 : ¬isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 xs : Vec F S1024x1024 .f32) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep x0 x1 x2 xs)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

set_option maxHeartbeats 2000000 in
/-- A batch's first tile: the scratch, whatever it held, is reset and this tile added; the output's buffer is untouched. -/
theorem run_first (c : Dev nD) (E : Set ℕ) (i : grid0.Coords) (h1 : isFirst i) (h2 : ¬isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 : Vec F S1024x1024 .f32) (xi : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (accStep x0 x1 x2 accReset)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

set_option maxHeartbeats 2000000 in
/-- A batch's last tile: this tile is added to the scratch and the sum copied into the output's buffer. -/
theorem run_last (c : Dev nD) (E : Set ℕ) (i : grid0.Coords) (h1 : ¬isFirst i) (h2 : isLast i)
    (arg2 : Memref sig .tc .vmem S1x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1x1024x1024 .f32) (harg5 : arg5.IsWhole)
    (arg6 : Memref sig .tc .vmem S1024x1024 .f32) (harg6 : arg6.IsWhole)
    (x0 : Vec F S1x256x1024 .f32) (x1 x2 xs : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outM (accStep x0 x1 x2 xs)) ∗ owns (c : Thread nD τ) arg6 fullShare (accStep x0 x1 x2 xs)) -∗ K ⟨⟩))
      ⊢ wp frame (wpE (defs₀ (F := F)) Variants.none c none) E (cc0__compute_m_kernel i arg2 harg2 arg3 harg3 arg4 harg4 arg5 harg5 arg6 harg6) K := by
  simp only [cc0__compute_m_kernel_eq_skeleton]; unfold cc0__compute_m_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_m _), View.canon_unit_zero hz3]
    simp only [View.readAt_eq_ld, View.ld_unit_zero (S := S1024x1024) hz2, View.ld_unit_zero (S := S1x256x1024) hz3, View.readCov_unit_zero (S := S1024x1024) _ hz2]
    try rfl
  iexists _; isplitr
  swap; · iexact H4
  ipureintro
  sl_unfold_words
  rw [View.read_writes_eq_canon _ _ _ (cover_w' _ _), View.canon_cons_unit_zero hz2]
  simp only [View.readAt_eq_ld, View.ld_unit_zero (S := S1024x1024) hz2, View.ld_unit_zero (S := S1x256x1024) hz3, View.readCov_unit_zero (S := S1024x1024) _ hz2]
  try rfl

/-! ## The windows' blocks -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The running sum, point by point -/

/-- What the scratch holds after the body at position `n`: at a batch's first tile the reset value plus that tile,
    otherwise what the point before left plus this tile. -/
def acc0 (c : Dev nD) : (n : ℕ) → n < cfg0.N → Vec F S1024x1024 .f32
  | 0, hn => accStep (iblk0 V c 0 ⟨0, hn⟩) (iblk0 V c 1 ⟨0, hn⟩) (iblk0 V c 2 ⟨0, hn⟩) accReset
  | n + 1, hn =>
    if (n + 1) % 16 = 0 then
      accStep (iblk0 V c 0 ⟨n + 1, hn⟩) (iblk0 V c 1 ⟨n + 1, hn⟩) (iblk0 V c 2 ⟨n + 1, hn⟩) accReset
    else
      accStep (iblk0 V c 0 ⟨n + 1, hn⟩) (iblk0 V c 1 ⟨n + 1, hn⟩) (iblk0 V c 2 ⟨n + 1, hn⟩) (acc0 c n (Nat.lt_of_succ_lt hn))

theorem acc0_first (c : Dev nD) (t : Fin cfg0.N) (h : t.val % 16 = 0) :
    acc0 V c t.val t.isLt = accStep (iblk0 V c 0 t) (iblk0 V c 1 t) (iblk0 V c 2 t) accReset := by
  obtain ⟨n, hn⟩ := t
  cases n with
  | zero => rfl
  | succ n => exact (if_pos h).trans rfl

theorem acc0_next (c : Dev nD) (t : Fin cfg0.N) (h : ¬t.val % 16 = 0) :
    acc0 V c t.val t.isLt = accStep (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The scoped buffers this region never touches (the other region's staging buffers), each whole at some contents. -/
abbrev restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The library's class invariant, spelt out: the scratch at some contents, the untouched scoped buffers, the generator register. -/
theorem PhiA0_eq (c : Dev nD) :
    (Pipeline.ΦA spec0 c : sProp 𝕄)
      = iprop(iprop((∃ d, owns (c : Thread nD τ) scM fullShare d) ∗ restScoped c) ∗ (∃ r, prngReg c r)) := by
  unfold Pipeline.ΦA; rw [scopedRest0_eq]; simp only [scM, owns_whole]; try rfl

/-- The invariant before position `n`: before the first point the class's; afterwards the scratch holds what the point
    before left. -/
def PhiS (c : Dev nD) : (n : ℕ) → n ≤ cfg0.N → sProp 𝕄
  | 0, _ => Pipeline.ΦA spec0 c
  | n + 1, hn => iprop(iprop(owns (c : Thread nD τ) scM fullShare (acc0 V c n hn) ∗ restScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (acc0 V c n hn) ∗ restScoped c) ∗ (∃ r, prngReg c r)) := rfl

theorem PhiS_pos (c : Dev nD) (n : ℕ) (h : n ≤ cfg0.N) (hz : n ≠ 0) :
    PhiS V c n h = iprop(iprop(owns (c : Thread nD τ) scM fullShare (acc0 V c (n - 1) (by omega)) ∗ restScoped c) ∗ (∃ r, prngReg c r)) := by
  cases n with
  | zero => exact absurd rfl hz
  | succ n => rfl

/-- At any position the invariant yields the scratch at SOME contents beside the rest. -/
theorem PhiS_weaken (c : Dev nD) (n : ℕ) (h : n ≤ cfg0.N) :
    PhiS V c n h ⊢ iprop(iprop((∃ d, owns (c : Thread nD τ) scM fullShare d) ∗ restScoped c) ∗ (∃ r, prngReg c r)) := by
  by_cases hz : n = 0
  · rw [PhiS_zero V c n h hz, PhiA0_eq]
  · rw [PhiS_pos V c n h hz]
    iintro ⟨⟨HS, HR⟩, Hg⟩
    isplitl [HS HR]
    · isplitl [HS]
      · iexists _; iexact HS
      iexact HR
    iexact Hg

/-! ## The region's proof data -/

/-- The arrays as the region finds them; after the body at point `t` each input's buffer at its block and the output's
    at the running sum laid out as a block (consulted only at a batch's last tile: elsewhere the window is idle); the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outM (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outM (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3_last (c : Dev nD) (t : Fin cfg0.N) (h : isLast (grid0.coords t)) :
    (dat0 V c).leavesExact 3 t = owns (c : Thread nD τ) (st0_3 t) fullShare (outM (acc0 V c t.val t.isLt)) := by
  unfold Dat.leavesExact; rw [live0_3 t h, after0_3]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The point's position within its batch says which of the three runs applies; the invariant
    hands the body the scratch (at what the point before left, or at anything where the body resets it) and takes it
    back at this point's running sum; off a batch's last tile the output's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, PhiS_castSucc V c t]
  by_cases hF : t.val % 16 = 0
  · have h1 : isFirst (grid0.coords t) := (isFirst_iff t).mpr hF
    have h2 : ¬isLast (grid0.coords t) := fun h => by have := (isLast_iff t).mp h; omega
    rw [Dat.leavesExact_idle (dat0 V c) 3 t (idle0_3 t h2) (noFlush0_3 t h2), acc0_first V c t hF]
    iintro ⟨HΦ, Ho, ⟨%d0, H0⟩, ⟨%d1, H1⟩, ⟨%d2, H2⟩, ⟨%d3, H3⟩⟩
    ihave HΦ' := (PhiS_weaken V c t.val (Nat.le_of_lt t.isLt)) $$ HΦ
    icases HΦ' with ⟨⟨HS, HR⟩, Hg⟩
    iapply (run_first c Set.univ (grid0.coords t) h1 h2 _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have h1 : ¬isFirst (grid0.coords t) := fun h => hF ((isFirst_iff t).mp h)
    have hz : t.val ≠ 0 := fun e => hF (by rw [e])
    rw [acc0_next V c t hF, PhiS_pos V c _ _ hz]
    by_cases hL : t.val % 16 = 15
    · have h2 : isLast (grid0.coords t) := (isLast_iff t).mpr hL
      rw [leaves0_3_last V c t h2, acc0_next V c t hF]
      iintro ⟨⟨⟨HS, HR⟩, Hg⟩, Ho, ⟨%d0, H0⟩, ⟨%d1, H1⟩, ⟨%d2, H2⟩, ⟨%d3, H3⟩⟩
      iapply (run_last c Set.univ (grid0.coords t) h1 h2 _ _ _ _ _ _ _ _ _ _ (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have h2 : ¬isLast (grid0.coords t) := fun h => hL ((isLast_iff t).mp h)
      rw [Dat.leavesExact_idle (dat0 V c) 3 t (idle0_3 t h2) (noFlush0_3 t h2)]
      iintro ⟨⟨⟨HS, HR⟩, Hg⟩, Ho, ⟨%d0, H0⟩, ⟨%d1, H1⟩, ⟨%d2, H2⟩, ⟨%d3, H3⟩⟩
      iapply (run_mid c Set.univ (grid0.coords t) h1 h2 _ _ _ _ _ _ _ _ _ _ (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after the last point the invariant gives it back, the scratch's named contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weaken V c _ _

end Cert.KernelIdeal.Hand

end
-- ==== Proof.Region1.lean ====
/-
  The second kernel region (the output pass), at the buffer contents `V` the region is entered with.
  At grid point `t = (b, s)` the body reads four blocks — rows `256 s … 256 s + 255` of batch `b` of `x`, the whole of
  `Waᵀ`, the Gram matrix of batch `b`, the whole of `Wdᵀ` — and overwrites its whole output block with ONE stored
  value, a pure function of those four (`k1_pay1`); the load of the output block that precedes the store is dead.
  So the proof data name, per point, each input's buffer at its block and the output's at that function of the
  blocks; the invariant is the untouched rest (the other scoped buffers and the generator register).
-/
import proofs.«175324_j45191645889033_1_alg».proof.Proof.Gen.KernelIdeal.Launch
import proofs.«175324_j45191645889033_1_alg».proof.Proof.Gen.KernelIdeal.Skeleton
import proofs.«175324_j45191645889033_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S1x256x1024 := Rect.unit (s := S1x256x1024) ![0, 0, 0] S1x256x1024.size inb_S1x256x1024_S1x256x1024_0_0_0
abbrev r1_w : Rect S1024x1024 := Rect.unit (s := S1024x1024) ![0, 0] S1024x1024.size inb_S1024x1024_S1024x1024_0_0
abbrev r1_m : Rect S1x1024x1024 := Rect.unit (s := S1x1024x1024) ![0, 0, 0] S1x1024x1024.size inb_S1x1024x1024_S1x1024x1024_0_0_0

/-- What the body leaves in the output window's buffer: its one store, of the whole block. -/
def out1_4 (x0 : Vec F S1x256x1024 .f32) (x1 : Vec F S1024x1024 .f32) (x2 : Vec F S1x1024x1024 .f32) (x3 : Vec F S1024x1024 .f32) :
    Vec F S1x256x1024 .f32 :=
  View.canon [⟨r1_x, k1_pay1 (View.ld x0 r1_x) (View.ld x1 r1_w) (View.ld x2 r1_m) (View.ld x3 r1_w)⟩]

/-- The one store covers the block. -/
theorem cover1_4 (p0 : Vec F S1x256x1024 .f32) (y : S1x256x1024.Idx) :
    ∃ pc ∈ ([⟨r1_x, p0⟩] : List (View.Piece (Elt F) S1x256x1024 .f32)), y ∈ pc.1.set :=
  View.cover_of_tiled [⟨r1_x, p0⟩] S1x256x1024.size (by rfl) y

/-! ## The body's triple -/

set_option maxHeartbeats 1000000 in
/-- On whole staging buffers, the inputs' at contents `x0 … x3` and the output's at anything, the body runs to the
    inputs' as they were and the output's at `out1_4` of them. -/
theorem sound_kernel1 (c : Dev nD) (E : Set ℕ) (i : grid1.Coords)
    (arg2 : Memref sig .tc .vmem S1x256x1024 .f32) (harg2 : arg2.IsWhole) (arg3 : Memref sig .tc .vmem S1024x1024 .f32) (harg3 : arg3.IsWhole)
    (arg4 : Memref sig .tc .vmem S1x1024x1024 .f32) (harg4 : arg4.IsWhole) (arg5 : Memref sig .tc .vmem S1024x1024 .f32) (harg5 : arg5.IsWhole)
    (arg6 : Memref sig .tc .vmem S1x256x1024 .f32) (harg6 : arg6.IsWhole)
    (x0 : Vec F S1x256x1024 .f32) (x1 : Vec F S1024x1024 .f32) (x2 : Vec F S1x1024x1024 .f32) (x3 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__compute_out_kernel i arg2 harg2 arg3 harg3 arg4 harg4 arg5 harg5 arg6 harg6) K := by
  simp only [cc1__compute_out_kernel_eq_skeleton]; unfold cc1__compute_out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The region's proof data -/

/-- The arrays as the region finds them; after the body at point `t` each input's buffer at its block and the
    output's at `out1_4` of the four blocks; the invariant the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole run: @main is four transposes on the host, the Gram pass, the output pass. The contents of every unscoped
  buffer at each boundary are a fold from the launch memory: the host operations applied, then each region's arrays at
  what its write-backs leave. Each region enters from "every unscoped buffer at the boundary's contents, the generator
  register at some state, nothing owed" and leaves at the next boundary's; the final state is read against the last
  boundary's contents, which names the result array and shows every argument as launched.
-/
import proofs.«175324_j45191645889033_1_alg».proof.Proof.Region0
import proofs.«175324_j45191645889033_1_alg».proof.Proof.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host's four transposes: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the Gram pass: its arrays at what its write-backs leave, the rest as entered. The second region's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the output pass: the end. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

`x` is an input window of both regions, never written back; the four weights are read only by the host's transposes. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The Gram pass: its arrays split out of the unscoped buffers and put back at the exit contents; the generator
    register and the scoped rest into the invariant (the class's, which is the invariant before the first point) and
    out of it (after the last point the scratch's named contents are forgotten). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V1 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output pass, whose invariant is the class's throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, in a state
    whose unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result named: the result array holds what the output pass's write-backs leave, and every
    argument is as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.PayloadAt.lean ====
/-
  The two kernel bodies' stored values, read at one index, at the ideal instance: each is a few matrix products
  (a contraction into a zero accumulator is a plain finite sum), rectifications `max · 0` and changes of layout that
  move no entry; a change of float format is the identity.
-/
import proofs.«175324_j45191645889033_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The plain product `[256,1024] · [1024,1024]`: its operand indices, axis by axis -/

/-- The left operand's row is the result's row. -/
theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The left operand's column is the contraction position. -/
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's row is the contraction position. -/
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The right operand's column is the result's column. -/
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The plain product into a zero accumulator: `(l · r)[p,q] = Σ_d l[p,d] · r[d,q]`. -/
theorem mm_apply {φ₁ φ₂ : FTy} (l : FVec Ideal S256x1024 φ₁) (r : FVec Ideal S1024x1024 φ₂) (p : Fin 256) (q : Fin 1024) :
    matmul (F := Ideal) dot_S256x1024_S1024x1024_S256x1024_1_0_0_1_n_n none l r (constant (F := Ideal) S256x1024 .f32 0x00000000#32) (ix2 p q)
      = ∑ d : Fin 1024, l (ix2 p d) * r (ix2 d q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-! ## The product with the left operand transposed, `[256,1024]ᵀ · [256,1024]`: its operand indices -/

/-- The left operand's row is the contraction position. -/
theorem lhs_mmT_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
/-- The left operand's column is the result's row. -/
theorem lhs_mmT_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
/-- The right operand's row is the contraction position. -/
theorem rhs_mmT_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
/-- The right operand's column is the result's column. -/
theorem rhs_mmT_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- The transposed-left product into a zero accumulator: `(lᵀ · r)[e,f] = Σ_t l[t,e] · r[t,f]`. -/
theorem mmT_apply {φ₁ φ₂ : FTy} (l : FVec Ideal S256x1024 φ₁) (r : FVec Ideal S256x1024 φ₂) (e f : Fin 1024) :
    matmul (F := Ideal) dot_S256x1024_S256x1024_S1024x1024_0_0_1_1_n_n none l r (constant (F := Ideal) S1024x1024 .f32 0x00000000#32) (ix2 e f)
      = ∑ t : Fin 256, l (ix2 t e) * r (ix2 t f) := by
  simp only [matmul]
  rw [Ideal.matmul_constant_zero_apply, ← Equiv.sum_comp (ValueIdx.contrEquiv1 dot_S256x1024_S256x1024_S1024x1024_0_0_1_1_n_n 256 rfl rfl).symm]
  refine Finset.sum_congr rfl fun k _ => ?_
  have hk := ValueIdx.contrEquiv1_symm_val dot_S256x1024_S256x1024_S1024x1024_0_0_1_1_n_n 256 rfl rfl k
  have el : dot_S256x1024_S256x1024_S1024x1024_0_0_1_1_n_n.lhsIdx (ix2 e f) ((ValueIdx.contrEquiv1 dot_S256x1024_S256x1024_S1024x1024_0_0_1_1_n_n 256 rfl rfl).symm k) = ix2 k e := funext fun a => Fin.ext (by
    match a with
    | ⟨0, _⟩ => exact (lhs_mmT_0 _ _).trans hk
    | ⟨1, _⟩ => exact lhs_mmT_1 _ _)
  have er : dot_S256x1024_S256x1024_S1024x1024_0_0_1_1_n_n.rhsIdx (ix2 e f) ((ValueIdx.contrEquiv1 dot_S256x1024_S256x1024_S1024x1024_0_0_1_1_n_n 256 rfl rfl).symm k) = ix2 k f := funext fun a => Fin.ext (by
    match a with
    | ⟨0, _⟩ => exact (rhs_mmT_0 _ _).trans hk
    | ⟨1, _⟩ => exact rhs_mmT_1 _ _)
  rw [el, er]

/-! ## The zero constant -/

/-- The f32 zero word, as a scalar constant, is the extended real `0`. -/
theorem scalar_zero_f32 : Scalar.ofBits (F := Ideal) .f32 0x00000000#32 = (0 : EReal) := Ideal.ofBits_zero_f32

/-- The accumulator's reset value is zero everywhere. -/
theorem k0_pay1_apply (e f : Fin 1024) : k0_pay1 (F := Ideal) (ix2 e f) = 0 := by
  unfold k0_pay1
  rw [shapeCast_self, broadcast_apply]
  exact scalar_zero_f32

/-- The accumulator's update: what it held plus this tile's `Σ_r relu(x·Wbᵀ)[r,e] · relu(x·Wcᵀ)[r,f]`
    (`v6`, `v9` are the transposed weights: `v6[d,e] = Wb[e,d]`). -/
theorem k0_pay2_apply (v3 : Vec Ideal S1x256x1024 .f32) (v6 v9 v21 : Vec Ideal S1024x1024 .f32) (e f : Fin 1024) :
    k0_pay2 (F := Ideal) v3 v6 v9 v21 (ix2 e f)
      = v21 (ix2 e f) + ∑ r : Fin 256, max (∑ d : Fin 1024, v3 (ix3 0 r d) * v6 (ix2 d e)) 0
                                      * max (∑ d : Fin 1024, v3 (ix3 0 r d) * v9 (ix2 d f)) 0 := by
  unfold k0_pay2
  simp only [shapeCast_self]
  rw [addf_apply, mmT_apply]
  simp only [truncf_apply, maximumf_apply, broadcast_apply, mm_apply, shapeCast_1ab_ab_apply, scalar_zero_f32]

/-- The accumulator copied into the output block: a change of layout only. -/
theorem k0_pay3_apply (v29 : Vec Ideal S1024x1024 .f32) (e f : Fin 1024) :
    k0_pay3 (F := Ideal) v29 (ix3 0 e f) = v29 (ix2 e f) := by
  unfold k0_pay3
  exact shapeCast_ab_1ab_apply v29 _ 0 e f

/-- The second kernel's stored block: `relu( (relu(x·Waᵀ) · M) · Wdᵀ )` at row `r`, feature `g`
    (`v3[d,e] = Wa[e,d]`, `v10[0,e,f] = M[e,f]`, `v15[f,g] = Wd[g,f]`). -/
theorem k1_pay1_apply (v0 : Vec Ideal S1x256x1024 .f32) (v3 : Vec Ideal S1024x1024 .f32) (v10 : Vec Ideal S1x1024x1024 .f32)
    (v15 : Vec Ideal S1024x1024 .f32) (r : Fin 256) (g : Fin 1024) :
    k1_pay1 (F := Ideal) v0 v3 v10 v15 (ix3 0 r g)
      = max (∑ f : Fin 1024, (∑ e : Fin 1024, max (∑ d : Fin 1024, v0 (ix3 0 r d) * v3 (ix2 d e)) 0 * v10 (ix3 0 e f)) * v15 (ix2 f g)) 0 := by
  unfold k1_pay1
  simp only [shapeCast_self]
  rw [shapeCast_ab_1ab_apply, maximumf_apply, mm_apply]
  simp only [truncf_apply, maximumf_apply, broadcast_apply, mm_apply, shapeCast_1ab_ab_apply, scalar_zero_f32]

end Cert.KernelIdeal.Payload

end
-- ==== Proof.Spec.lean ====
/-
  The mathematics of the two programs, over the extended reals, with no program in sight.

  Both compute, for a batch `b`, a row `s` and an output feature `g`,
      relu ( Σ_f  P[b,s,f] · Wd[g,f] ),
  from the three rectified projections  A = relu(x·Waᵀ),  Bm = relu(x·Wbᵀ),  C = relu(x·Wcᵀ)  of the rows of `x`
  (`proj`).  They differ in how the triple product `P` is bracketed:
    * reference:  P[b,s,f] = Σ_t ( Σ_e A[b,s,e]·Bm[b,t,e] ) · C[b,t,f]        — the S×S score matrix first;
    * kernel:     P[b,s,f] = Σ_e A[b,s,e] · ( Σ_t Bm[b,t,e]·C[b,t,f] )        — the D×D Gram matrix first,
                  the Gram matrix itself summed tile by tile, 256 rows `t` at a time.
  The two brackets agree when every factor is a real number (distributivity and exchanging two finite sums hold on
  ℝ, and fail at ±∞), which is the case as soon as `x`, `Wa`, `Wb`, `Wc` have only finite entries.
-/
import Idealize.ShloMosaic.PureOps.Ideal
import Idealize.ShloMosaic.PureOps.Ideal.Laws
import Idealize.ShloMosaic.Lib.ValueIdx

noncomputable section

open scoped BigOperators

namespace Cert.TripleProduct

open Idealize.ShloMosaic Idealize.ShloMosaic.ValueIdx

/-- The shape of `x` and of the result: batch × rows × features. -/
abbrev SX : Shape := ⟨3, ![4, 4096, 1024]⟩
/-- The shape of each weight matrix: output feature × input feature. -/
abbrev SW : Shape := ⟨2, ![1024, 1024]⟩

/-- An extended real that is a real number. -/
def Fin' (a : EReal) : Prop := a ≠ ⊤ ∧ a ≠ ⊥

variable (x : SX.Idx → EReal) (Wa Wb Wc Wd : SW.Idx → EReal)

/-- The rectified projection of row `(b, s)` of `x` on row `e` of a weight matrix `W`: `max (Σ_d x[b,s,d]·W[e,d]) 0`. -/
def proj (W : SW.Idx → EReal) (b : Fin 4) (s : Fin 4096) (e : Fin 1024) : EReal :=
  max (∑ d : Fin 1024, x (ix3 b s d) * W (ix2 e d)) 0

/-! ## The reference's bracketing -/

/-- The unnormalised score of row `s` against row `t`: `Σ_e A[b,s,e]·Bm[b,t,e]`. -/
def score (b : Fin 4) (s t : Fin 4096) : EReal :=
  ∑ e : Fin 1024, proj x Wa b s e * proj x Wb b t e

/-- The scores applied to `C`: `Σ_t score[b,s,t]·C[b,t,f]`. -/
def mixRef (b : Fin 4) (s : Fin 4096) (f : Fin 1024) : EReal :=
  ∑ t : Fin 4096, score x Wa Wb b s t * proj x Wc b t f

/-- The reference's result. -/
def outRef (b : Fin 4) (s : Fin 4096) (g : Fin 1024) : EReal :=
  max (∑ f : Fin 1024, mixRef x Wa Wb Wc b s f * Wd (ix2 g f)) 0

/-! ## The kernel's bracketing -/

/-- Row `r` of tile `j` of the 4096 rows, 256 rows to a tile. -/
def rowOf (j : Fin 16) (r : Fin 256) : Fin 4096 := ⟨256 * j.val + r.val, by omega⟩

/-- One tile's contribution to the Gram matrix: `Σ_{r<256} Bm[b,256j+r,e]·C[b,256j+r,f]`. -/
def gramTile (b : Fin 4) (j : Fin 16) (e f : Fin 1024) : EReal :=
  ∑ r : Fin 256, proj x Wb b (rowOf j r) e * proj x Wc b (rowOf j r) f

/-- The running sum of the tiles `0 … n`, bracketed as the accumulator forms it: `((0 + tile₀) + tile₁) + …`. -/
def gramUpTo (b : Fin 4) : ℕ → Fin 1024 → Fin 1024 → EReal
  | 0, e, f => 0 + gramTile x Wb Wc b 0 e f
  | n + 1, e, f => gramUpTo b n e f + (if h : n + 1 < 16 then gramTile x Wb Wc b ⟨n + 1, h⟩ e f else 0)

/-- The Gram matrix `Σ_t Bm[b,t,e]·C[b,t,f]`. -/
def gram (b : Fin 4) (e f : Fin 1024) : EReal :=
  ∑ t : Fin 4096, proj x Wb b t e * proj x Wc b t f

/-- `A` applied to the Gram matrix: `Σ_e A[b,s,e]·gram[b,e,f]`. -/
def mixKer (b : Fin 4) (s : Fin 4096) (f : Fin 1024) : EReal :=
  ∑ e : Fin 1024, proj x Wa b s e * gram x Wb Wc b e f

/-- The kernel's result. -/
def outKer (b : Fin 4) (s : Fin 4096) (g : Fin 1024) : EReal :=
  max (∑ f : Fin 1024, mixKer x Wa Wb Wc b s f * Wd (ix2 g f)) 0

/-! ## The laws -/

/-! ### Real-valued extended reals -/

/-- An extended real is real exactly when it is the image of a real number. -/
theorem fin'_iff_exists_coe (a : EReal) : Fin' a ↔ ∃ r : ℝ, a = (r : EReal) := by
  constructor
  · rintro ⟨h1, h2⟩
    exact ⟨a.toReal, (EReal.coe_toReal h1 h2).symm⟩
  · rintro ⟨r, rfl⟩
    exact ⟨EReal.coe_ne_top r, EReal.coe_ne_bot r⟩

/-- The inclusion of ℝ commutes with finite sums. -/
theorem coe_real_sum {ι : Type*} (s : Finset ι) (g : ι → ℝ) :
    ((∑ i ∈ s, g i : ℝ) : EReal) = ∑ i ∈ s, (g i : EReal) := by
  classical
  refine Finset.induction_on s (by simp) (fun a s ha ih => ?_)
  rw [Finset.sum_insert ha, Finset.sum_insert ha, EReal.coe_add, ih]

/-- The inclusion of ℝ commutes with `max`. -/
theorem coe_real_max (p q : ℝ) : ((max p q : ℝ) : EReal) = max (p : EReal) (q : EReal) :=
  (EReal.coe_strictMono.monotone).map_max

/-! ### The tiles -/

/-- The accumulator after step `n` is the sum of the tiles `0 … n` (those that exist). -/
theorem gramUpTo_eq_sum_range (b : Fin 4) (n : ℕ) (e f : Fin 1024) :
    gramUpTo x Wb Wc b n e f
      = ∑ j ∈ Finset.range (n + 1), (if h : j < 16 then gramTile x Wb Wc b ⟨j, h⟩ e f else 0) := by
  induction n with
  | zero => simp [gramUpTo]
  | succ n ih => rw [gramUpTo, ih, Finset.sum_range_succ _ (n + 1)]

/-- Sixteen tiles of 256 rows are the 4096 rows: `(j, r) ↦ 256·j + r` is a bijection. -/
theorem sum_rowOf (g : Fin 4096 → EReal) :
    ∑ j : Fin 16, ∑ r : Fin 256, g (rowOf j r) = ∑ t : Fin 4096, g t := by
  rw [← Fintype.sum_prod_type']
  refine Fintype.sum_equiv (finProdFinEquiv.trans (finCongr (by norm_num))) _ _ (fun p => ?_)
  congr 1
  ext
  simp [rowOf, finProdFinEquiv]
  omega

/-- All sixteen tiles, summed in the accumulator's order, are the whole Gram matrix (a finite sum regrouped: no
    finiteness needed). -/
theorem gramUpTo_last (b : Fin 4) (e f : Fin 1024) : gramUpTo x Wb Wc b 15 e f = gram x Wb Wc b e f := by
  rw [gramUpTo_eq_sum_range, Finset.sum_range]
  unfold gram
  rw [← sum_rowOf]
  refine Finset.sum_congr rfl (fun j _ => ?_)
  rw [dif_pos j.isLt]
  rfl

/-- A rectified projection of finite data is a real number. -/
theorem proj_fin (W : SW.Idx → EReal) (hx : ∀ i, Fin' (x i)) (hW : ∀ i, Fin' (W i)) (b : Fin 4) (s : Fin 4096) (e : Fin 1024) :
    Fin' (proj x W b s e) := by
  have hx' : ∀ i, ∃ r : ℝ, x i = (r : EReal) := fun i => (fin'_iff_exists_coe _).1 (hx i)
  have hW' : ∀ i, ∃ r : ℝ, W i = (r : EReal) := fun i => (fin'_iff_exists_coe _).1 (hW i)
  choose xr hxr using hx'
  choose wr hwr using hW'
  rw [fin'_iff_exists_coe]
  refine ⟨max (∑ d : Fin 1024, xr (ix3 b s d) * wr (ix2 e d)) 0, ?_⟩
  unfold proj
  rw [coe_real_max, coe_real_sum, EReal.coe_zero]
  simp only [hxr, hwr, EReal.coe_mul]

/-- Reassociating the triple product: on finite data the two brackets agree. -/
theorem mixKer_eq_mixRef (hx : ∀ i, Fin' (x i)) (hWa : ∀ i, Fin' (Wa i)) (hWb : ∀ i, Fin' (Wb i)) (hWc : ∀ i, Fin' (Wc i))
    (b : Fin 4) (s : Fin 4096) (f : Fin 1024) : mixKer x Wa Wb Wc b s f = mixRef x Wa Wb Wc b s f := by
  have hA : ∀ e, ∃ r : ℝ, proj x Wa b s e = (r : EReal) := fun e => (fin'_iff_exists_coe _).1 (proj_fin x Wa hx hWa b s e)
  have hB : ∀ t e, ∃ r : ℝ, proj x Wb b t e = (r : EReal) := fun t e => (fin'_iff_exists_coe _).1 (proj_fin x Wb hx hWb b t e)
  have hC : ∀ t, ∃ r : ℝ, proj x Wc b t f = (r : EReal) := fun t => (fin'_iff_exists_coe _).1 (proj_fin x Wc hx hWc b t f)
  choose A hA using hA
  choose Bm hB using hB
  choose C hC using hC
  have hK : mixKer x Wa Wb Wc b s f = ((∑ e : Fin 1024, A e * ∑ t : Fin 4096, Bm t e * C t) : ℝ) := by
    unfold mixKer gram
    simp only [hA, hB, hC, coe_real_sum, EReal.coe_mul]
  have hR : mixRef x Wa Wb Wc b s f = ((∑ t : Fin 4096, (∑ e : Fin 1024, A e * Bm t e) * C t) : ℝ) := by
    unfold mixRef score
    simp only [hA, hB, hC, coe_real_sum, EReal.coe_mul]
  rw [hK, hR]
  congr 1
  simp only [Finset.mul_sum, Finset.sum_mul]
  rw [Finset.sum_comm]
  refine Finset.sum_congr rfl (fun t _ => Finset.sum_congr rfl (fun e _ => ?_))
  ring

/-- The two programs' results agree on finite data. -/
theorem outKer_eq_outRef (hx : ∀ i, Fin' (x i)) (hWa : ∀ i, Fin' (Wa i)) (hWb : ∀ i, Fin' (Wb i)) (hWc : ∀ i, Fin' (Wc i))
    (b : Fin 4) (s : Fin 4096) (g : Fin 1024) : outKer x Wa Wb Wc Wd b s g = outRef x Wa Wb Wc Wd b s g := by
  unfold outKer outRef
  simp only [mixKer_eq_mixRef x Wa Wb Wc hx hWa hWb hWc]

end Cert.TripleProduct

end
-- ==== Proof.GramValue.lean ====
/-
  What the Gram pass leaves in its output array, at the ideal instance: entry `(b, e, f)` is
  `Σ_t relu(x·Wbᵀ)[b,t,e] · relu(x·Wcᵀ)[b,t,f]`. Point `(b, j)` of the grid reads rows `256 j … 256 j + 255` of batch `b`
  and the two whole transposed weights; its update adds tile `j`'s contribution, so by induction along a batch the
  scratch holds the running sum of the tiles `0 … j`; the batch's last point copies the full sum into block `b`.
-/
import proofs.«175324_j45191645889033_1_alg».proof.Proof.Region0
import proofs.«175324_j45191645889033_1_alg».proof.Proof.PayloadAt
import proofs.«175324_j45191645889033_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.TripleProduct
open scoped BigOperators

variable (V : (c : Dev nD) → (b : Ref sig .tc) → Buf (Elt Ideal) ((c : Thread nD τ).loc b))

/-- The block indices of the four windows at grid point `t = 16·b + j`: the rows window sits at `(b, j, 0)`, the two
    weight windows at the origin, the output window at `(b, 0, 0)`. -/
theorem blockIndex : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = 0 ∧ win0_3.index t (2 : Fin 3) = 0 :=
  (by decide +kernel : ∀ t : Fin grid0.N, _)

/-- The rows block at point `t` reads `x` at batch `t / 16`, rows `256 (t % 16) …`. -/
theorem rowsBlock_apply (c : Dev nD) (t : Fin cfg0.N) (r : Fin 256) (d : Fin 1024) (b : Fin 4) (s : Fin 4096)
    (hb : b.val = t.val / 16) (hs : s.val = 256 * (t.val % 16) + r.val) :
    (iblk0 V c 0 t : Vec Ideal S1x256x1024 .f32) (ix3 0 r d) = V c main_arg0 (ix3 b s d) := by
  obtain ⟨e0, e1, e2, -⟩ := blockIndex t
  unfold iblk0
  rw [View.read_apply]
  show V c main_arg0 (((cfg0.win 0).blk t).view.emb (ix3 0 r d)) = V c main_arg0 (ix3 b s d)
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 256 + 1 * r.val = s.val; rw [e1, hs]; omega
  | ⟨2, _⟩ => show win0_0.index t (2 : Fin 3) * 1024 + 1 * d.val = d.val; rw [e2]; omega

/-- The two weight blocks are the whole matrices, at every point. -/
theorem wbBlock_apply (c : Dev nD) (t : Fin cfg0.N) (d e : Fin 1024) :
    (iblk0 V c 1 t : Vec Ideal S1024x1024 .f32) (ix2 d e) = V c main_v1 (ix2 d e) := by
  obtain ⟨-, -, -, e0, e1, -⟩ := blockIndex t
  unfold iblk0
  rw [View.read_apply]
  show V c main_v1 (((cfg0.win 1).blk t).view.emb (ix2 d e)) = V c main_v1 (ix2 d e)
  congr 1
  funext a
  apply Fin.ext
  match a with
  | ⟨0, _⟩ => show win0_1.index t (0 : Fin 2) * 1024 + 1 * d.val = d.val; rw [e0]; omega
  | ⟨1, _⟩ => show win0_1.index t (1 : Fin 2) * 1024 + 1 * e.val = e.val; rw [e1]; omega

theorem wcBlock_apply (c : Dev nD) (t : Fin cfg0.N) (d f : Fin 1024) :
    (iblk0 V c 2 t : Vec Ideal S1024x1024 .f32) (ix2 d f) = V c main_v2 (ix2 d f) := by
  obtain ⟨-, -, -, -, -, e0, e1, -⟩ := blockIndex t
  unfold iblk0
  rw [View.read_apply]
  show V c main_v2 (((cfg0.win 2).blk t).view.emb (ix2 d f)) = V c main_v2 (ix2 d f)
  congr 1
  funext a
  apply Fin.ext
  match a with
  | ⟨0, _⟩ => show win0_2.index t (0 : Fin 2) * 1024 + 1 * d.val = d.val; rw [e0]; omega
  | ⟨1, _⟩ => show win0_2.index t (1 : Fin 2) * 1024 + 1 * f.val = f.val; rw [e1]; omega

/-- The three input blocks at a point, under their literal types. -/
abbrev rowsBlk (c : Dev nD) (t : Fin cfg0.N) : Vec Ideal S1x256x1024 .f32 := iblk0 V c 0 t
abbrev wbBlk (c : Dev nD) (t : Fin cfg0.N) : Vec Ideal S1024x1024 .f32 := iblk0 V c 1 t
abbrev wcBlk (c : Dev nD) (t : Fin cfg0.N) : Vec Ideal S1024x1024 .f32 := iblk0 V c 2 t

/-- One tile: what point `t = 16 b + j` adds at entry `(e, f)` is tile `j`'s contribution to batch `b`'s Gram matrix. -/
theorem tile_eq (c : Dev nD) (X : SX.Idx → EReal) (Wb Wc : SW.Idx → EReal)
    (hX : ∀ (b : Fin 4) (s : Fin 4096) (d : Fin 1024), V c main_arg0 (ix3 b s d) = X (ix3 b s d))
    (hWb : ∀ d e : Fin 1024, V c main_v1 (ix2 d e) = Wb (ix2 e d))
    (hWc : ∀ d f : Fin 1024, V c main_v2 (ix2 d f) = Wc (ix2 f d))
    (t : Fin cfg0.N) (b : Fin 4) (j : Fin 16) (hb : b.val = t.val / 16) (hj : j.val = t.val % 16) (e f : Fin 1024) :
    (∑ r : Fin 256, max (∑ d : Fin 1024, rowsBlk V c t (ix3 0 r d) * wbBlk V c t (ix2 d e)) 0
        * max (∑ d : Fin 1024, rowsBlk V c t (ix3 0 r d) * wcBlk V c t (ix2 d f)) 0)
      = gramTile X Wb Wc b j e f := by
  unfold gramTile proj
  refine Finset.sum_congr rfl fun r _ => ?_
  have hs : (rowOf j r).val = 256 * (t.val % 16) + r.val := by
    show 256 * j.val + r.val = _
    rw [hj]
  have hx : ∀ d : Fin 1024, rowsBlk V c t (ix3 0 r d) = X (ix3 b (rowOf j r) d) := fun d =>
    (rowsBlock_apply V c t r d b (rowOf j r) hb hs).trans (hX b (rowOf j r) d)
  have hb' : ∀ d : Fin 1024, wbBlk V c t (ix2 d e) = Wb (ix2 e d) := fun d => (wbBlock_apply V c t d e).trans (hWb d e)
  have hc' : ∀ d : Fin 1024, wcBlk V c t (ix2 d f) = Wc (ix2 f d) := fun d => (wcBlock_apply V c t d f).trans (hWc d f)
  have e1 : (∑ d : Fin 1024, rowsBlk V c t (ix3 0 r d) * wbBlk V c t (ix2 d e)) = ∑ d : Fin 1024, X (ix3 b (rowOf j r) d) * Wb (ix2 e d) :=
    Finset.sum_congr rfl fun d _ => by rw [hx d, hb' d]
  have e2 : (∑ d : Fin 1024, rowsBlk V c t (ix3 0 r d) * wcBlk V c t (ix2 d f)) = ∑ d : Fin 1024, X (ix3 b (rowOf j r) d) * Wc (ix2 f d) :=
    Finset.sum_congr rfl fun d _ => by rw [hx d, hc' d]
  rw [e1, e2]

/-- The running sum: after point `n = 16 b + j` the scratch holds the sum of the tiles `0 … j` of batch `b`, bracketed as
    the accumulator forms it. By induction along the grid: a batch's first point resets to zero and adds tile 0; every
    later point adds its tile onto what the point before (of the same batch) left. -/
theorem acc_eq (c : Dev nD) (X : SX.Idx → EReal) (Wb Wc : SW.Idx → EReal)
    (hX : ∀ (b : Fin 4) (s : Fin 4096) (d : Fin 1024), V c main_arg0 (ix3 b s d) = X (ix3 b s d))
    (hWb : ∀ d e : Fin 1024, V c main_v1 (ix2 d e) = Wb (ix2 e d))
    (hWc : ∀ d f : Fin 1024, V c main_v2 (ix2 d f) = Wc (ix2 f d)) :
    ∀ (n : ℕ) (hn : n < cfg0.N) (b : Fin 4), b.val = n / 16 → ∀ e f : Fin 1024,
      acc0 V c n hn (ix2 e f) = gramUpTo X Wb Wc b (n % 16) e f := by
  have hN : cfg0.N = 64 := N_0
  intro n
  induction n with
  | zero =>
    intro hn b hb e f
    refine (congrFun (acc0_first V c ⟨0, hn⟩ rfl) (ix2 e f)).trans ?_
    show k0_pay2 (F := Ideal) (rowsBlk V c ⟨0, hn⟩) (wbBlk V c ⟨0, hn⟩) (wcBlk V c ⟨0, hn⟩) (k0_pay1 (F := Ideal)) (ix2 e f) = _
    refine (Payload.k0_pay2_apply (rowsBlk V c ⟨0, hn⟩) (wbBlk V c ⟨0, hn⟩) (wcBlk V c ⟨0, hn⟩) (k0_pay1 (F := Ideal)) e f).trans ?_
    rw [Payload.k0_pay1_apply, tile_eq V c X Wb Wc hX hWb hWc ⟨0, hn⟩ b 0 hb rfl e f]
    rfl
  | succ n ih =>
    intro hn b hb e f
    by_cases h0 : (n + 1) % 16 = 0
    · refine (congrFun (acc0_first V c ⟨n + 1, hn⟩ h0) (ix2 e f)).trans ?_
      show k0_pay2 (F := Ideal) (rowsBlk V c ⟨n + 1, hn⟩) (wbBlk V c ⟨n + 1, hn⟩) (wcBlk V c ⟨n + 1, hn⟩) (k0_pay1 (F := Ideal)) (ix2 e f) = _
      refine (Payload.k0_pay2_apply (rowsBlk V c ⟨n + 1, hn⟩) (wbBlk V c ⟨n + 1, hn⟩) (wcBlk V c ⟨n + 1, hn⟩) (k0_pay1 (F := Ideal)) e f).trans ?_
      rw [Payload.k0_pay1_apply, tile_eq V c X Wb Wc hX hWb hWc ⟨n + 1, hn⟩ b 0 hb h0.symm e f, h0]
      rfl
    · have hn' : n < cfg0.N := Nat.lt_of_succ_lt hn
      have hj : (n + 1) % 16 = n % 16 + 1 := by omega
      have hb' : b.val = n / 16 := by omega
      have hlt : n % 16 + 1 < 16 := by omega
      refine (congrFun (acc0_next V c ⟨n + 1, hn⟩ h0) (ix2 e f)).trans ?_
      show k0_pay2 (F := Ideal) (rowsBlk V c ⟨n + 1, hn⟩) (wbBlk V c ⟨n + 1, hn⟩) (wcBlk V c ⟨n + 1, hn⟩) (acc0 V c n hn') (ix2 e f) = _
      refine (Payload.k0_pay2_apply (rowsBlk V c ⟨n + 1, hn⟩) (wbBlk V c ⟨n + 1, hn⟩) (wcBlk V c ⟨n + 1, hn⟩) (acc0 V c n hn') e f).trans ?_
      rw [ih hn' b hb' e f, tile_eq V c X Wb Wc hX hWb hWc ⟨n + 1, hn⟩ b ⟨n % 16 + 1, hlt⟩ hb hj.symm e f, hj]
      show _ = gramUpTo X Wb Wc b (n % 16) e f + (if h : n % 16 + 1 < 16 then gramTile X Wb Wc b ⟨n % 16 + 1, h⟩ e f else 0)
      rw [dif_pos hlt]

/-- What a batch's last point writes back is block `b` of the Gram matrices: the running sum through tile 15 is the
    whole sum over the 4096 rows. -/
theorem gramFlushed_eq (c : Dev nD) (X : SX.Idx → EReal) (Wb Wc : SW.Idx → EReal)
    (hX : ∀ (b : Fin 4) (s : Fin 4096) (d : Fin 1024), V c main_arg0 (ix3 b s d) = X (ix3 b s d))
    (hWb : ∀ d e : Fin 1024, V c main_v1 (ix2 d e) = Wb (ix2 e d))
    (hWc : ∀ d f : Fin 1024, V c main_v2 (ix2 d f) = Wc (ix2 f d))
    (t : Fin cfg0.N) (hf : (cfg0.win 3).flush t = true) :
    (dat0 V c).flushed 3 t
      = ((cfg0.win 3).blk t).view.read (Elt Ideal) (fun i => gram X Wb Wc (i 0) (i 1) (i 2)) := by
  have hN : cfg0.N = 64 := N_0
  have hl : t.val % 16 = 15 := (flush0_3 t).mp hf
  have ht : t.val < 64 := hN ▸ t.isLt
  obtain ⟨-, -, -, -, -, -, -, e0, e1, e2⟩ := blockIndex t
  show (cfg0.win 3).cut (grid0.coords t) ((dat0 V c).after 3 t) = _
  rw [after0_3]
  funext j
  obtain ⟨u, e, f, rfl⟩ : ∃ u e f, j = ix3 u e f := ⟨j 0, j 1, j 2, eq_ix3 j⟩
  obtain rfl : u = 0 := Subsingleton.elim _ _
  show k0_pay3 (F := Ideal) (acc0 V c t.val t.isLt) (ix3 0 e f) = _
  refine (Payload.k0_pay3_apply (acc0 V c t.val t.isLt) e f).trans ?_
  rw [acc_eq V c X Wb Wc hX hWb hWc t.val t.isLt ⟨t.val / 16, by omega⟩ rfl e f, hl, gramUpTo_last, View.read_apply]
  show gram X Wb Wc _ e f = gram X Wb Wc ((((cfg0.win 3).blk t).view.emb (ix3 0 e f)) 0) ((((cfg0.win 3).blk t).view.emb (ix3 0 e f)) 1) ((((cfg0.win 3).blk t).view.emb (ix3 0 e f)) 2)
  congr 1
  · apply Fin.ext
    show t.val / 16 = win0_3.index t (0 : Fin 3) * 1 + 1 * (0 : Fin 1).val
    rw [e0]; simp
  · apply Fin.ext
    show e.val = win0_3.index t (1 : Fin 3) * 1024 + 1 * e.val
    rw [e1]; omega
  · apply Fin.ext
    show f.val = win0_3.index t (2 : Fin 3) * 1024 + 1 * f.val
    rw [e2]; omega

/-- An index of the output array is in point `t`'s block iff each coordinate is in the block's range on its axis. -/
theorem mem_gramBlk (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v4).slice (win0_3.rect t)).set ↔ _
  rw [View.set_slice_whole, Rect.mem_set_unit]
  exact Iff.rfl

/-- Every index `(b, e, f)` of the output array lies in the block that batch `b`'s last point, `16 b + 15`, writes back. -/
theorem gram_cover (i : S4x1024x1024.Idx) :
    ∃ t : Fin cfg0.N, (cfg0.win 3).flush t = true ∧ i ∈ ((cfg0.win 3).blk t).view.set := by
  have hN : cfg0.N = 64 := N_0
  have h0 : (i 0).val < 4 := (i 0).isLt
  have h1 : (i 1).val < 1024 := (i 1).isLt
  have h2 : (i 2).val < 1024 := (i 2).isLt
  have hlt : 16 * (i 0).val + 15 < cfg0.N := by omega
  obtain ⟨-, -, -, -, -, -, -, e0, e1, e2⟩ := blockIndex ⟨16 * (i 0).val + 15, hlt⟩
  have e0' : win0_3.index ⟨16 * (i 0).val + 15, hlt⟩ (0 : Fin 3) = (i 0).val := by
    rw [e0]; show (16 * (i 0).val + 15) / 16 = (i 0).val; omega
  refine ⟨⟨16 * (i 0).val + 15, hlt⟩, (flush0_3 _).mpr (by show (16 * (i 0).val + 15) % 16 = 15; omega), ?_⟩
  rw [mem_gramBlk]
  intro a
  match a with
  | ⟨0, _⟩ =>
    show win0_3.index ⟨16 * (i 0).val + 15, hlt⟩ (0 : Fin 3) * 1 ≤ (i 0).val
      ∧ (i 0).val < win0_3.index ⟨16 * (i 0).val + 15, hlt⟩ (0 : Fin 3) * 1 + 1
    rw [e0']; omega
  | ⟨1, _⟩ =>
    show win0_3.index ⟨16 * (i 0).val + 15, hlt⟩ (1 : Fin 3) * 1024 ≤ (i 1).val
      ∧ (i 1).val < win0_3.index ⟨16 * (i 0).val + 15, hlt⟩ (1 : Fin 3) * 1024 + 1024
    rw [e1]; omega
  | ⟨2, _⟩ =>
    show win0_3.index ⟨16 * (i 0).val + 15, hlt⟩ (2 : Fin 3) * 1024 ≤ (i 2).val
      ∧ (i 2).val < win0_3.index ⟨16 * (i 0).val + 15, hlt⟩ (2 : Fin 3) * 1024 + 1024
    rw [e2]; omega

/-- The Gram pass's output array after all its write-backs, given what the region finds in the arrays it reads:
    `x` in `main_arg0`, and in `main_v1`, `main_v2` the transposes of `Wb`, `Wc`. -/
theorem gram_final (c : Dev nD) (X : SX.Idx → EReal) (Wb Wc : SW.Idx → EReal)
    (hX : ∀ (b : Fin 4) (s : Fin 4096) (d : Fin 1024), V c main_arg0 (ix3 b s d) = X (ix3 b s d))
    (hWb : ∀ d e : Fin 1024, V c main_v1 (ix2 d e) = Wb (ix2 e d))
    (hWc : ∀ d f : Fin 1024, V c main_v2 (ix2 d f) = Wc (ix2 f d)) :
    (dat0 V c).arrAt 3 cfg0.N = (fun i => gram X Wb Wc (i 0) (i 1) (i 2)) :=
  (dat0 V c).arrAt_eq_of_cover 3 (fun i => gram X Wb Wc (i 0) (i 1) (i 2))
    (fun t hf => gramFlushed_eq V c X Wb Wc hX hWb hWc t hf) gram_cover

end Cert.KernelIdeal.Hand

end
-- ==== Proof.OutValue.lean ====
/-
  What the output pass leaves in the result array, at the ideal instance: entry `(b, s, g)` is
  `relu( Σ_f ( Σ_e relu(x·Waᵀ)[b,s,e] · M[b,e,f] ) · Wd[g,f] )`, with `M` the Gram matrix the first pass left.
  Point `(b, j)` of the grid reads rows `256 j … 256 j + 255` of batch `b` of `x`, block `b` of `M` and the two whole
  transposed weights, and writes exactly those rows of the result; the 64 blocks tile the array.
-/
import proofs.«175324_j45191645889033_1_alg».proof.Proof.Region1
import proofs.«175324_j45191645889033_1_alg».proof.Proof.PayloadAt
import proofs.«175324_j45191645889033_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.TripleProduct
open scoped BigOperators

variable (V : (c : Dev nD) → (b : Ref sig .tc) → Buf (Elt Ideal) ((c : Thread nD τ).loc b))

/-! ## The index maps -/

/-- The index maps of the five windows, decided once over the 4 × 16 grid. Point `t = 16 b + j` is batch `b`, row tile
    `j`: the row-tiled windows (`x` and the result) sit at block `(b, j, 0)`, the Gram matrix at block `(b, 0, 0)`,
    and the two whole weight matrices at block `(0, 0)`. -/
private theorem index_at : ∀ t : Fin cfg1.N,
    win1_0.index t (0 : Fin 3) = t.val / 16 ∧ win1_0.index t (1 : Fin 3) = t.val % 16 ∧ win1_0.index t (2 : Fin 3) = 0
    ∧ win1_1.index t (0 : Fin 2) = 0 ∧ win1_1.index t (1 : Fin 2) = 0
    ∧ win1_2.index t (0 : Fin 3) = t.val / 16 ∧ win1_2.index t (1 : Fin 3) = 0 ∧ win1_2.index t (2 : Fin 3) = 0
    ∧ win1_3.index t (0 : Fin 2) = 0 ∧ win1_3.index t (1 : Fin 2) = 0
    ∧ win1_4.index t (0 : Fin 3) = t.val / 16 ∧ win1_4.index t (1 : Fin 3) = t.val % 16 ∧ win1_4.index t (2 : Fin 3) = 0 :=
  (by decide +kernel : ∀ t : Fin grid1.N, _)

/-- The grid has 64 points. -/
private theorem point_lt (t : Fin cfg1.N) : t.val < 64 := Nat.lt_of_lt_of_eq t.isLt (show cfg1.N = 64 from N_1)

/-- The batch of point `t = 16 b + j`: `b = t / 16`. -/
private def batchAt (t : Fin cfg1.N) : Fin 4 := ⟨t.val / 16, by have := point_lt t; omega⟩

/-- Row `r` of the row tile of point `t = 16 b + j`, among the 4096 rows: `256 j + r` with `j = t % 16`. -/
private def rowAt (t : Fin cfg1.N) (r : Fin 256) : Fin 4096 := ⟨256 * (t.val % 16) + r.val, by have := r.isLt; omega⟩

/-! ## The blocks, read where their rectangles say

An element of a block sits in its array, on each axis, at the block index times the block's size plus its own coordinate. -/

/-- The block of `x` at point `t`: rows `256 j … 256 j + 255` of batch `b`. -/
private theorem x_block (c : Dev nD) (t : Fin cfg1.N) (r : Fin 256) (d : Fin 1024) :
    iblk1 V c 0 t (ix3 0 r d) = V c main_arg0 (ix3 (batchAt t) (rowAt t r) d) := by
  obtain ⟨e0, e1, e2, -⟩ := index_at t
  show V c main_arg0 (((cfg1.win 0).blk t).view.emb (ix3 0 r d)) = V c main_arg0 _
  congr 1
  funext a; apply Fin.ext
  match a with
  | ⟨0, _⟩ => show win1_0.index t (0 : Fin 3) * 1 + 1 * 0 = t.val / 16; omega
  | ⟨1, _⟩ => show win1_0.index t (1 : Fin 3) * 256 + 1 * r.val = 256 * (t.val % 16) + r.val; omega
  | ⟨2, _⟩ => show win1_0.index t (2 : Fin 3) * 1024 + 1 * d.val = d.val; omega

/-- The block of the first weight at any point: the whole matrix. -/
private theorem wa_block (c : Dev nD) (t : Fin cfg1.N) (d e : Fin 1024) :
    iblk1 V c 1 t (ix2 d e) = V c main_v0 (ix2 d e) := by
  obtain ⟨-, -, -, e0, e1, -⟩ := index_at t
  show V c main_v0 (((cfg1.win 1).blk t).view.emb (ix2 d e)) = V c main_v0 _
  congr 1
  funext a; apply Fin.ext
  match a with
  | ⟨0, _⟩ => show win1_1.index t (0 : Fin 2) * 1024 + 1 * d.val = d.val; omega
  | ⟨1, _⟩ => show win1_1.index t (1 : Fin 2) * 1024 + 1 * e.val = e.val; omega

/-- The block of the Gram matrix at point `t`: the matrix of batch `b`. -/
private theorem gram_block (c : Dev nD) (t : Fin cfg1.N) (e f : Fin 1024) :
    iblk1 V c 2 t (ix3 0 e f) = V c main_v4 (ix3 (batchAt t) e f) := by
  obtain ⟨-, -, -, -, -, e0, e1, e2, -⟩ := index_at t
  show V c main_v4 (((cfg1.win 2).blk t).view.emb (ix3 0 e f)) = V c main_v4 _
  congr 1
  funext a; apply Fin.ext
  match a with
  | ⟨0, _⟩ => show win1_2.index t (0 : Fin 3) * 1 + 1 * 0 = t.val / 16; omega
  | ⟨1, _⟩ => show win1_2.index t (1 : Fin 3) * 1024 + 1 * e.val = e.val; omega
  | ⟨2, _⟩ => show win1_2.index t (2 : Fin 3) * 1024 + 1 * f.val = f.val; omega

/-- The block of the last weight at any point: the whole matrix. -/
private theorem wd_block (c : Dev nD) (t : Fin cfg1.N) (f g : Fin 1024) :
    iblk1 V c 3 t (ix2 f g) = V c main_v3 (ix2 f g) := by
  obtain ⟨-, -, -, -, -, -, -, -, e0, e1, -⟩ := index_at t
  show V c main_v3 (((cfg1.win 3).blk t).view.emb (ix2 f g)) = V c main_v3 _
  congr 1
  funext a; apply Fin.ext
  match a with
  | ⟨0, _⟩ => show win1_3.index t (0 : Fin 2) * 1024 + 1 * f.val = f.val; omega
  | ⟨1, _⟩ => show win1_3.index t (1 : Fin 2) * 1024 + 1 * g.val = g.val; omega

/-- Where entry `(0, r, g)` of the result's block at point `t` sits in the result: `(b, 256 j + r, g)`. -/
private theorem out_block_emb (t : Fin cfg1.N) (r : Fin 256) (g : Fin 1024) :
    ((cfg1.win 4).blk t).view.emb (ix3 0 r g) = ix3 (batchAt t) (rowAt t r) g := by
  obtain ⟨-, -, -, -, -, -, -, -, -, -, e0, e1, e2⟩ := index_at t
  funext a; apply Fin.ext
  match a with
  | ⟨0, _⟩ => show win1_4.index t (0 : Fin 3) * 1 + 1 * 0 = t.val / 16; omega
  | ⟨1, _⟩ => show win1_4.index t (1 : Fin 3) * 256 + 1 * r.val = 256 * (t.val % 16) + r.val; omega
  | ⟨2, _⟩ => show win1_4.index t (2 : Fin 3) * 1024 + 1 * g.val = g.val; omega

private theorem zeros2 : (![0, 0] : Fin 2 → Nat) = fun _ => 0 := funext fun a => by fin_cases a <;> rfl
private theorem zeros3 : (![0, 0, 0] : Fin 3 → Nat) = fun _ => 0 := funext fun a => by fin_cases a <;> rfl

/-! ## What each point writes back -/

/-- What point `t = 16 b + j` writes back is its block of the closed form: entry `(0, r, g)` of the stored value is
    `relu( Σ_f ( Σ_e relu( Σ_d x[b,256j+r,d] · Waᵀ[d,e] ) · M[b,e,f] ) · Wdᵀ[f,g] )`, which with the arrays read as
    `x`, `Wa`, the Gram matrix and `Wd` is the kernel's bracketing at `(b, 256 j + r, g)`, term for term. -/
private theorem flushed_out (c : Dev nD) (X : SX.Idx → EReal) (Wa Wb Wc Wd : SW.Idx → EReal)
    (hX : ∀ (b : Fin 4) (s : Fin 4096) (d : Fin 1024), V c main_arg0 (ix3 b s d) = X (ix3 b s d))
    (hWa : ∀ d e : Fin 1024, V c main_v0 (ix2 d e) = Wa (ix2 e d))
    (hM : ∀ (b : Fin 4) (e f : Fin 1024), V c main_v4 (ix3 b e f) = gram X Wb Wc b e f)
    (hWd : ∀ f g : Fin 1024, V c main_v3 (ix2 f g) = Wd (ix2 g f)) (t : Fin cfg1.N) :
    (dat1 V c).flushed 4 t
      = ((cfg1.win 4).blk t).view.read (Elt Ideal) (fun i => outKer X Wa Wb Wc Wd (i 0) (i 1) (i 2)) := by
  show (cfg1.win 4).cut (grid1.coords t) ((dat1 V c).after 4 t) = _
  rw [after1_4]
  unfold out1_4
  rw [View.canon_unit_zero zeros3]
  simp only [View.ld_unit_zero (S := S1x256x1024) zeros3, View.ld_unit_zero (S := S1024x1024) zeros2,
    View.ld_unit_zero (S := S1x1024x1024) zeros3]
  funext j
  obtain ⟨u, r, g, rfl⟩ : ∃ u r g, j = ix3 u r g := ⟨j 0, j 1, j 2, eq_ix3 j⟩
  obtain rfl : u = 0 := Subsingleton.elim _ _
  refine (Payload.k1_pay1_apply (iblk1 V c 0 t) (iblk1 V c 1 t) (iblk1 V c 2 t) (iblk1 V c 3 t) r g).trans ?_
  rw [View.read_apply, out_block_emb]
  show _ = outKer X Wa Wb Wc Wd (batchAt t) (rowAt t r) g
  unfold outKer mixKer proj
  simp only [x_block V c t, wa_block V c t, gram_block V c t, wd_block V c t, hX, hWa, hM, hWd]

/-! ## The blocks tile the result -/

/-- An index of the result is in point `t`'s block iff each coordinate is in the block's range on its axis. -/
private theorem mem_out_block (t : Fin cfg1.N) (i : S4x4096x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v5).slice (win1_4.rect t)).set ↔ _
  rw [View.set_slice_whole, Rect.mem_set_unit]
  exact Iff.rfl

/-- Index `(b, s, g)` lies in the block of point `16 b + s / 256`, which writes its block back. -/
private theorem out_cover (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : 16 * (i 0).val + (i 1).val / 256 < cfg1.N := by rw [show cfg1.N = 64 from N_1]; omega
  refine ⟨⟨16 * (i 0).val + (i 1).val / 256, hN⟩, flush1_4 _, ?_⟩
  obtain ⟨-, -, -, -, -, -, -, -, -, -, e0, e1, e2⟩ := index_at ⟨16 * (i 0).val + (i 1).val / 256, hN⟩
  rw [mem_out_block]
  intro a
  match a with
  | ⟨0, _⟩ =>
    show win1_4.index _ (0 : Fin 3) * 1 ≤ (i 0).val ∧ (i 0).val < win1_4.index _ (0 : Fin 3) * 1 + 1
    simp only [] at e0; omega
  | ⟨1, _⟩ =>
    show win1_4.index _ (1 : Fin 3) * 256 ≤ (i 1).val ∧ (i 1).val < win1_4.index _ (1 : Fin 3) * 256 + 256
    simp only [] at e1; omega
  | ⟨2, _⟩ =>
    show win1_4.index _ (2 : Fin 3) * 1024 ≤ (i 2).val ∧ (i 2).val < win1_4.index _ (2 : Fin 3) * 1024 + 1024
    omega

/-! ## The result array -/

/-- The result array after all the output pass's write-backs, given what the region finds in the arrays it reads:
    `x` in `main_arg0`, the transposes of `Wa`, `Wd` in `main_v0`, `main_v3`, and the Gram matrix in `main_v4`. -/
theorem out_final (c : Dev nD) (X : SX.Idx → EReal) (Wa Wb Wc Wd : SW.Idx → EReal)
    (hX : ∀ (b : Fin 4) (s : Fin 4096) (d : Fin 1024), V c main_arg0 (ix3 b s d) = X (ix3 b s d))
    (hWa : ∀ d e : Fin 1024, V c main_v0 (ix2 d e) = Wa (ix2 e d))
    (hM : ∀ (b : Fin 4) (e f : Fin 1024), V c main_v4 (ix3 b e f) = gram X Wb Wc b e f)
    (hWd : ∀ f g : Fin 1024, V c main_v3 (ix2 f g) = Wd (ix2 g f)) :
    (dat1 V c).arrAt 4 cfg1.N = (fun i => outKer X Wa Wb Wc Wd (i 0) (i 1) (i 2)) :=
  (dat1 V c).arrAt_eq_of_cover 4 _ (fun t _ => flushed_out V c X Wa Wb Wc Wd hX hWa hM hWd t) out_cover

end Cert.KernelIdeal.Hand

end
-- ==== Proof.KernelValue.lean ====
/-
  The kernel program's result as one function of the five launch arrays, at the ideal instance.
  The host's four operations are transposes, so each region finds `Waᵀ … Wdᵀ` beside `x`; the Gram pass leaves the Gram
  matrix of `relu(x·Wbᵀ)` and `relu(x·Wcᵀ)` in its array, which the output pass finds unchanged beside `x`, `Waᵀ`, `Wdᵀ`
  (no region writes an array it only reads, and the Gram pass writes nothing but its own output).
-/
import proofs.«175324_j45191645889033_1_alg».proof.Proof.Run
import proofs.«175324_j45191645889033_1_alg».proof.Proof.GramValue
import proofs.«175324_j45191645889033_1_alg».proof.Proof.OutValue
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.TripleProduct
open scoped BigOperators

variable (m : (ℓ : Loc nD τ sig) → Buf (Elt Ideal) ℓ) (ρ : Dev nD → PrngReg)

/-! ## What the first region finds -/

/-- No host operation writes `x`. -/
theorem V1_x (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- `main_v0` is the host's transpose of `main_arg1`: entry `(d, e)` is `main_arg1[e, d]`. -/
theorem V1_main_v0 (c : Dev nD) (d e : Fin 1024) :
    V1 m ρ c main_v0 (ix2 d e) = m ((c : Thread nD τ).loc main_arg1) (ix2 e d) := by
  have h : (V1 m ρ c main_v0 : S1024x1024.Idx → EReal)
      = transpose S1024x1024 [1, 0] (m ((c : Thread nD τ).loc main_arg1)) transposes_S1024x1024_S1024x1024_1_0 := by
    show StableHlo.after hostOps0 (W0 m ρ c) (Proc.devRef .tc main_v0) = _
    after_results
  rw [h]; exact transpose_ix2_apply _ _ d e

/-- `main_v1` is the host's transpose of `main_arg2`: entry `(d, e)` is `main_arg2[e, d]`. -/
theorem V1_main_v1 (c : Dev nD) (d e : Fin 1024) :
    V1 m ρ c main_v1 (ix2 d e) = m ((c : Thread nD τ).loc main_arg2) (ix2 e d) := by
  have h : (V1 m ρ c main_v1 : S1024x1024.Idx → EReal)
      = transpose S1024x1024 [1, 0] (m ((c : Thread nD τ).loc main_arg2)) transposes_S1024x1024_S1024x1024_1_0 := by
    show StableHlo.after hostOps0 (W0 m ρ c) (Proc.devRef .tc main_v1) = _
    after_results
  rw [h]; exact transpose_ix2_apply _ _ d e

/-- `main_v2` is the host's transpose of `main_arg3`: entry `(d, e)` is `main_arg3[e, d]`. -/
theorem V1_main_v2 (c : Dev nD) (d e : Fin 1024) :
    V1 m ρ c main_v2 (ix2 d e) = m ((c : Thread nD τ).loc main_arg3) (ix2 e d) := by
  have h : (V1 m ρ c main_v2 : S1024x1024.Idx → EReal)
      = transpose S1024x1024 [1, 0] (m ((c : Thread nD τ).loc main_arg3)) transposes_S1024x1024_S1024x1024_1_0 := by
    show StableHlo.after hostOps0 (W0 m ρ c) (Proc.devRef .tc main_v2) = _
    after_results
  rw [h]; exact transpose_ix2_apply _ _ d e

/-- `main_v3` is the host's transpose of `main_arg4`: entry `(d, e)` is `main_arg4[e, d]`. -/
theorem V1_main_v3 (c : Dev nD) (d e : Fin 1024) :
    V1 m ρ c main_v3 (ix2 d e) = m ((c : Thread nD τ).loc main_arg4) (ix2 e d) := by
  have h : (V1 m ρ c main_v3 : S1024x1024.Idx → EReal)
      = transpose S1024x1024 [1, 0] (m ((c : Thread nD τ).loc main_arg4)) transposes_S1024x1024_S1024x1024_1_0 := by
    show StableHlo.after hostOps0 (W0 m ρ c) (Proc.devRef .tc main_v3) = _
    after_results
  rw [h]; exact transpose_ix2_apply _ _ d e

/-! ## What the second region finds -/

/-- `x` is an input window of the Gram pass: never written back. -/
theorem V2_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_x m ρ c)

/-- The Gram pass has no window on `Waᵀ` or `Wdᵀ`. -/
theorem V2_main_v0 (c : Dev nD) : V2 m ρ c main_v0 = V1 m ρ c main_v0 := W2_of_ne m ρ c main_v0 (by decide)
theorem V2_main_v3 (c : Dev nD) : V2 m ρ c main_v3 = V1 m ρ c main_v3 := W2_of_ne m ρ c main_v3 (by decide)

/-- The Gram pass's array as the output pass finds it: the Gram matrix of the launch arrays. -/
theorem V2_gram (c : Dev nD) (b : Fin 4) (e f : Fin 1024) :
    V2 m ρ c main_v4 (ix3 b e f) = gram (m ((c : Thread nD τ).loc main_arg0)) (m ((c : Thread nD τ).loc main_arg2)) (m ((c : Thread nD τ).loc main_arg3)) b e f := by
  have h := gram_final (V1 m ρ) c (m ((c : Thread nD τ).loc main_arg0)) (m ((c : Thread nD τ).loc main_arg2)) (m ((c : Thread nD τ).loc main_arg3))
    (fun b s d => congrFun (V1_x m ρ c) (ix3 b s d)) (fun d e => V1_main_v1 m ρ c d e) (fun d f => V1_main_v2 m ρ c d f)
  have h4 : V2 m ρ c main_v4 = (dat0 (V1 m ρ) c).arrAt 3 cfg0.N := W2_arr m ρ c 3
  rw [h4, h]
  rfl

/-! ## The result -/

/-- The result array after the run, as one function of the launch arrays: the specification's kernel-order result. -/
theorem kernel_value (c : Dev nD) :
    (dat1 (V2 m ρ) c).arrAt 4 cfg1.N
      = (fun i => outKer (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)) :=
  out_final (V2 m ρ) c (m ((c : Thread nD τ).loc main_arg0)) (m ((c : Thread nD τ).loc main_arg1)) (m ((c : Thread nD τ).loc main_arg2)) (m ((c : Thread nD τ).loc main_arg3)) (m ((c : Thread nD τ).loc main_arg4))
    (fun b s d => congrFun (V2_x m ρ c) (ix3 b s d))
    (fun d e => (congrFun (V2_main_v0 m ρ c) (ix2 d e)).trans (V1_main_v0 m ρ c d e))
    (fun b e f => V2_gram m ρ c b e f)
    (fun f g => (congrFun (V2_main_v3 m ρ c) (ix2 f g)).trans (V1_main_v3 m ρ c f g))

/-- The run with the result's value: every weakly fair execution ends with the result array at the kernel-order
    function of the launch arrays and every argument as launched. -/
theorem run_value : θ_run defs (onTc (τ := τ) (main (F := Ideal))) ⟨m, fun _ => 0, ρ⟩ (fun r => ∀ c : Dev nD,
      r.2.mem ((c.tc : Thread nD τ).loc main_v5)
        = (fun i => outKer (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (kernel_value m ρ c), (h c).2⟩) (run_main (F := Ideal) m ρ)

end Cert.KernelIdeal.Hand

end
-- ==== Proof.RefValue.lean ====
/-
  The reference's result, stage by stage, is the specification's `outRef`: each einsum is the finite sum its
  subscripts spell, each `relu` a `max · 0`.
-/
import proofs.«175324_j45191645889033_1_alg».proof.Proof.Gen.ReferenceIdeal.Run
import proofs.«175324_j45191645889033_1_alg».proof.Proof.Gen.ReferenceIdeal.Read
import proofs.«175324_j45191645889033_1_alg».proof.Proof.Spec

noncomputable section

open scoped BigOperators

namespace Cert.ReferenceIdeal.RefValue

open Idealize.ShloMosaic Idealize.ShloMosaic.ValueIdx Cert.ReferenceIdeal Cert.ReferenceIdeal.Read

/-! ## The index functions of the contractions, at an index given by its coordinates -/

theorem lidx_v0_ix (b : Fin 4) (s : Fin 4096) (e d : Fin 1024) : lidx_main_v0 (ix3 b s e) d = ix3 b s d :=
  funext fun a => Fin.ext (by match a with | ⟨0, _⟩ => rfl | ⟨1, _⟩ => rfl | ⟨2, _⟩ => rfl)
theorem ridx_v0_ix (b : Fin 4) (s : Fin 4096) (e d : Fin 1024) : ridx_main_v0 (ix3 b s e) d = ix2 e d :=
  funext fun a => Fin.ext (by match a with | ⟨0, _⟩ => rfl | ⟨1, _⟩ => rfl)
theorem lidx_v2_ix (b : Fin 4) (s : Fin 4096) (e d : Fin 1024) : lidx_main_v2 (ix3 b s e) d = ix3 b s d :=
  funext fun a => Fin.ext (by match a with | ⟨0, _⟩ => rfl | ⟨1, _⟩ => rfl | ⟨2, _⟩ => rfl)
theorem ridx_v2_ix (b : Fin 4) (s : Fin 4096) (e d : Fin 1024) : ridx_main_v2 (ix3 b s e) d = ix2 e d :=
  funext fun a => Fin.ext (by match a with | ⟨0, _⟩ => rfl | ⟨1, _⟩ => rfl)
theorem lidx_v4_ix (b : Fin 4) (s : Fin 4096) (e d : Fin 1024) : lidx_main_v4 (ix3 b s e) d = ix3 b s d :=
  funext fun a => Fin.ext (by match a with | ⟨0, _⟩ => rfl | ⟨1, _⟩ => rfl | ⟨2, _⟩ => rfl)
theorem ridx_v4_ix (b : Fin 4) (s : Fin 4096) (e d : Fin 1024) : ridx_main_v4 (ix3 b s e) d = ix2 e d :=
  funext fun a => Fin.ext (by match a with | ⟨0, _⟩ => rfl | ⟨1, _⟩ => rfl)
theorem lidx_v6_ix (b : Fin 4) (s t : Fin 4096) (e : Fin 1024) : lidx_main_v6 (ix3 b s t) e = ix3 b s e :=
  funext fun a => Fin.ext (by match a with | ⟨0, _⟩ => rfl | ⟨1, _⟩ => rfl | ⟨2, _⟩ => rfl)
theorem ridx_v6_ix (b : Fin 4) (s t : Fin 4096) (e : Fin 1024) : ridx_main_v6 (ix3 b s t) e = ix3 b t e :=
  funext fun a => Fin.ext (by match a with | ⟨0, _⟩ => rfl | ⟨1, _⟩ => rfl | ⟨2, _⟩ => rfl)
theorem lidx_v7_ix (b : Fin 4) (s t : Fin 4096) (f : Fin 1024) : lidx_main_v7 (ix3 b s f) t = ix3 b s t :=
  funext fun a => Fin.ext (by match a with | ⟨0, _⟩ => rfl | ⟨1, _⟩ => rfl | ⟨2, _⟩ => rfl)
theorem ridx_v7_ix (b : Fin 4) (s t : Fin 4096) (f : Fin 1024) : ridx_main_v7 (ix3 b s f) t = ix3 b t f :=
  funext fun a => Fin.ext (by match a with | ⟨0, _⟩ => rfl | ⟨1, _⟩ => rfl | ⟨2, _⟩ => rfl)
theorem lidx_v8_ix (b : Fin 4) (s : Fin 4096) (g f : Fin 1024) : lidx_main_v8 (ix3 b s g) f = ix3 b s f :=
  funext fun a => Fin.ext (by match a with | ⟨0, _⟩ => rfl | ⟨1, _⟩ => rfl | ⟨2, _⟩ => rfl)
theorem ridx_v8_ix (b : Fin 4) (s : Fin 4096) (g f : Fin 1024) : ridx_main_v8 (ix3 b s g) f = ix2 g f :=
  funext fun a => Fin.ext (by match a with | ⟨0, _⟩ => rfl | ⟨1, _⟩ => rfl)

/-- The reference's last stage at the index `(b, s, g)` is `outRef` of the five arguments. -/
theorem ref_eq (x0 : (⟨S4x4096x1024, .f32⟩ : BufTy).Contents (Elt Ideal)) (x1 x2 x3 x4 : (⟨S1024x1024, .f32⟩ : BufTy).Contents (Elt Ideal))
    (b : Fin 4) (s : Fin 4096) (g : Fin 1024) :
    val_main_v9 (F := Ideal) x0 x1 x2 x3 x4 (ix3 b s g) = Cert.TripleProduct.outRef x0 x1 x2 x3 x4 b s g := by
  simp only [val_main_v9_apply, val_main_v8_apply, val_main_v7_apply, val_main_v6_apply, val_main_v5_apply,
    val_main_v4_apply, val_main_v3_apply, val_main_v2_apply, val_main_v1_apply, val_main_v0_apply,
    val_main_call0_v0_apply, val_main_call0_cst_apply, val_main_call1_v0_apply, val_main_call1_cst_apply,
    val_main_call2_v0_apply, val_main_call2_cst_apply, val_main_call3_v0_apply, val_main_call3_cst_apply,
    lidx_v8_ix, ridx_v8_ix, lidx_v7_ix, ridx_v7_ix, lidx_v6_ix, ridx_v6_ix,
    lidx_v4_ix, ridx_v4_ix, lidx_v2_ix, ridx_v2_ix, lidx_v0_ix, ridx_v0_ix,
    Ideal.maximumf_def, Ideal.ofBits_def, Ideal.ofBits_zero_f32]
  -- Both sides are now the same nested sum: `outRef`, `mixRef`, `score` and `proj` unfold to it term by term.
  rfl

end Cert.ReferenceIdeal.RefValue

end
-- ==== Proof.Finite.lean ====
/-
  From the precondition to real numbers: `finite_inputs` says, array by array, that every entry's absolute value is
  below +∞; on the extended reals that is exactly "the entry is neither +∞ nor −∞".
-/
import proofs.«175324_j45191645889033_1_alg».proof.Pre_finite_inputs
import proofs.«175324_j45191645889033_1_alg».proof.Proof.Spec
import Idealize.ShloMosaic.Lib.ReduceAll
import Idealize.ShloMosaic.Lib.ValueIdx

noncomputable section

namespace Cert.TripleProduct

open Idealize.ShloMosaic Idealize.ShloMosaic.ValueIdx

/-- The f32 word `0x7F800000` denotes `+∞`. -/
private theorem ofBits_inf : Ideal.ofBits .f32 0x7F800000#32 = (⊤ : EReal) := by
  simp [Ideal.ofBits, Ideal.ieee]

/-- On the extended reals `max a (−a) < +∞` holds exactly off the two infinities: at `+∞` the maximum is `+∞`, at
    `−∞` it is `−(−∞) = +∞` again. -/
private theorem fin_of_abs_lt_top (a : EReal) (h : max a (-a) < ⊤) : Fin' a := by
  induction a using EReal.rec with
  | bot => simp at h
  | top => simp at h
  | coe r => exact ⟨EReal.coe_ne_top r, EReal.coe_ne_bot r⟩

/-- One entry: the bit of `|a| < +∞` being 1 says `a` is a real number. -/
private theorem fin_of_bit (a : Ideal .f32)
    (h : FloatOps.cmpf .olt (FloatOps.hostAbsf a) (FloatOps.ofBits (F := Ideal) .f32 0x7F800000#32) = 1#1) : Fin' a := by
  change Ideal.cmp .olt (max (a : EReal) (-(a : EReal))) (Ideal.ofBits .f32 0x7F800000#32) = 1#1 at h
  rw [ofBits_inf] at h
  unfold Ideal.cmp at h
  by_cases hlt : max (a : EReal) (-(a : EReal)) < ⊤
  · exact fin_of_abs_lt_top a hlt
  · simp [hlt] at h

/-- One array: if "all entries have `|·| < +∞`", reduced by `and` over every axis, is 1, every entry is a real number. -/
private theorem all_fin {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (init : IVec Cert.Pre_finite_inputs.S_ 1)
    (h : Host.reduce IntOp.andi
          (cmpf .olt (Host.absf a) (broadcastInDim s ![] hb (constant (F := Ideal) Cert.Pre_finite_inputs.S_ .f32 0x7F800000#32)))
          init hr hu ix0 = 1#1) :
    ∀ i, Fin' (a i) := by
  intro i
  -- a shape of rank 0 has one index
  haveI : Subsingleton Cert.Pre_finite_inputs.S_.Idx := ⟨fun a b => funext fun d => d.elim0⟩
  have hi := Host.reduce_andi_all _ init hr hu ix0 h i
  exact fin_of_bit (a i) hi

/-- If the printed precondition evaluates to all ones on five arrays of extended reals, every entry of each is a real number. -/
theorem finite_of_pre [Cert.Pre_finite_inputs.Facts]
    (a0 : FVec Ideal Cert.Pre_finite_inputs.S4x4096x1024 .f32)
    (a1 a2 a3 a4 : FVec Ideal Cert.Pre_finite_inputs.S1024x1024 .f32)
    (h : Cert.Pre_finite_inputs.fn (F := Ideal) a0 a1 a2 a3 a4 = fun _ => 1#1) :
    (∀ i, Fin' (a0 i)) ∧ (∀ i, Fin' (a1 i)) ∧ (∀ i, Fin' (a2 i)) ∧ (∀ i, Fin' (a3 i)) ∧ (∀ i, Fin' (a4 i)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_fin _ _ _ a0 _ h0', all_fin _ _ _ a1 _ h1, all_fin _ _ _ a2 _ h2, all_fin _ _ _ a3 _ h3,
    all_fin _ _ _ a4 _ h4⟩

end Cert.TripleProduct

end
-- ==== Proof.lean ====
/-
  The certificate. Both programs compute `relu( P · Wdᵀ )` from the three rectified projections
  `A = relu(x·Waᵀ)`, `Bm = relu(x·Wbᵀ)`, `C = relu(x·Wcᵀ)`; the reference brackets the triple product as
  `(A·Bmᵀ)·C` (an S×S score matrix, no softmax), the kernel as `A·(Bmᵀ·C)` (a D×D Gram matrix, accumulated over
  sixteen row tiles per batch in a first pass, consumed by a second). Over the extended reals the two brackets agree
  because every factor is a real number: the precondition makes every input finite, and a rectified finite sum of
  products of reals is real; on ℝ the identity is distributivity and the exchange of two finite sums.
  The frames: the kernel program's, at both instances, from its two regions' body triples (the first carrying its
  scratch accumulator across grid points); the reference's from its run with the result dropped. The idealization
  rewrote nothing, so `preserves` is trivial.
-/
import proofs.«175324_j45191645889033_1_alg».proof.Defs
import proofs.«175324_j45191645889033_1_alg».proof.Proof.Gen.Kernel
import proofs.«175324_j45191645889033_1_alg».proof.Proof.Gen.KernelIdeal
import proofs.«175324_j45191645889033_1_alg».proof.Proof.Gen.ReferenceIdeal
import proofs.«175324_j45191645889033_1_alg».proof.Proof.Gen.Pre_finite_inputs
import proofs.«175324_j45191645889033_1_alg».proof.Proof.Gen.ReferenceIdeal.Run
import proofs.«175324_j45191645889033_1_alg».proof.Proof.Gen.ReferenceIdeal.Read
import proofs.«175324_j45191645889033_1_alg».proof.Proof.BitsRun
import proofs.«175324_j45191645889033_1_alg».proof.Proof.KernelValue
import proofs.«175324_j45191645889033_1_alg».proof.Proof.RefValue
import proofs.«175324_j45191645889033_1_alg».proof.Proof.Finite
import proofs.«175324_j45191645889033_1_alg».proof.Proof.Spec

noncomputable section

namespace Cert.Proof

open Idealize.ShloMosaic Idealize.ShloMosaic.TcCoe Idealize.SL.Sem Idealize.ShloMosaic.ValueIdx Cert.TripleProduct

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments, the kernel program ends at the kernel-order result of its launch
    arrays and the reference at the reference-order result of the same arrays; on finite inputs the two are one
    function. -/
theorem algebraic : Cert.algebraic_KernelIdeal_ReferenceIdeal := by
  intro m ρ m' ρ' hpre hagree
  refine ⟨fun c => (fun i => outKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (i 0) (i 1) (i 2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq]
  obtain ⟨h0, h1, h2, h3, h4⟩ := hagree c
  rw [h0, h1, h2, h3, h4]
  obtain ⟨f0, f1, f2, f3, -⟩ := Cert.TripleProduct.finite_of_pre _ _ _ _ _ (hpre c)
  funext i
  obtain ⟨b, s, g, rfl⟩ : ∃ b s g, i = ix3 b s g := ⟨i 0, i 1, i 2, eq_ix3 i⟩
  rw [Cert.ReferenceIdeal.RefValue.ref_eq]
  exact (outKer_eq_outRef _ _ _ _ _ f0 f1 f2 f3 b s g).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
